-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4x2048x1 : Shape := ⟨3, ![4, 2048, 1]⟩
abbrev S11008x4096 : Shape := ⟨2, ![11008, 4096]⟩
abbrev S11008x32 : Shape := ⟨2, ![11008, 32]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4x2048x1 : S_.BroadcastsInDim S4x2048x1 (![] : Fin 0 → Fin S4x2048x1.rank)
  reducesTo_S4x2048x1_S_d0_1_2 : S4x2048x1.ReducesTo [0, 1, 2] S_
  bcast_S_S11008x4096 : S_.BroadcastsInDim S11008x4096 (![] : Fin 0 → Fin S11008x4096.rank)
  reducesTo_S11008x4096_S_d0_1 : S11008x4096.ReducesTo [0, 1] S_
  bcast_S_S11008x32 : S_.BroadcastsInDim S11008x32 (![] : Fin 0 → Fin S11008x32.rank)
  reducesTo_S11008x32_S_d0_1 : S11008x32.ReducesTo [0, 1] S_

variable [Facts]

def fn_part1 {F : FTy → Type} [FloatOps F] (main_arg4 : FVec F S11008x32 .f32) (main_v13 : IVec S_ 1) (main_v16 : IVec S11008x32 1) : IVec S_ 1 :=
  let main_c_5 : IVec S_ 1 := constantI S_ 1 1#1
  let main_v17 : IVec S_ 1 := (fun x v => Host.reduce IntOp.andi x v reducesTo_S11008x32_S_d0_1 h_S_) main_v16 main_c_5
  let main_v18 : IVec S_ 1 := andi main_v13 main_v17
  let main_v19 : FVec F S11008x32 .f32 := Host.absf main_arg4
  let main_cst_6 : FVec F S_ .f32 := constant S_ .f32 0x7F800000#32
  let main_v20 : FVec F S11008x32 .f32 := broadcastInDim S11008x32 ![] bcast_S_S11008x32 main_cst_6
  let main_v21 : IVec S11008x32 1 := cmpf .olt main_v19 main_v20
  let main_c_7 : IVec S_ 1 := constantI S_ 1 1#1
  let main_v22 : IVec S_ 1 := (fun x v => Host.reduce IntOp.andi x v reducesTo_S11008x32_S_d0_1 h_S_) main_v21 main_c_7
  let main_v23 : IVec S_ 1 := andi main_v18 main_v22
  main_v23

def fn {F : FTy → Type} [FloatOps F] (main_arg0 : FVec F S4x2048x4096 .f32) (main_arg1 : FVec F S4x2048x1 .f32) (main_arg2 : FVec F S11008x4096 .f32) (main_arg3 : FVec F S11008x32 .f32) (main_arg4 : FVec F S11008x32 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4x2048x1 .f32 := Host.absf main_arg1
  let main_cst_0 : FVec F S_ .f32 := constant S_ .f32 0x7F800000#32
  let main_v5 : FVec F S4x2048x1 .f32 := broadcastInDim S4x2048x1 ![] bcast_S_S4x2048x1 main_cst_0
  let main_v6 : IVec S4x2048x1 1 := cmpf .olt main_v4 main_v5
  let main_c_1 : IVec S_ 1 := constantI S_ 1 1#1
  let main_v7 : IVec S_ 1 := (fun x v => Host.reduce IntOp.andi x v reducesTo_S4x2048x1_S_d0_1_2 h_S_) main_v6 main_c_1
  let main_v8 : IVec S_ 1 := andi main_v3 main_v7
  let main_v9 : FVec F S11008x4096 .f32 := Host.absf main_arg2
  let main_cst_2 : FVec F S_ .f32 := constant S_ .f32 0x7F800000#32
  let main_v10 : FVec F S11008x4096 .f32 := broadcastInDim S11008x4096 ![] bcast_S_S11008x4096 main_cst_2
  let main_v11 : IVec S11008x4096 1 := cmpf .olt main_v9 main_v10
  let main_c_3 : IVec S_ 1 := constantI S_ 1 1#1
  let main_v12 : IVec S_ 1 := (fun x v => Host.reduce IntOp.andi x v reducesTo_S11008x4096_S_d0_1 h_S_) main_v11 main_c_3
  let main_v13 : IVec S_ 1 := andi main_v8 main_v12
  let main_v14 : FVec F S11008x32 .f32 := Host.absf main_arg3
  let main_cst_4 : FVec F S_ .f32 := constant S_ .f32 0x7F800000#32
  let main_v15 : FVec F S11008x32 .f32 := broadcastInDim S11008x32 ![] bcast_S_S11008x32 main_cst_4
  let main_v16 : IVec S11008x32 1 := cmpf .olt main_v14 main_v15
  fn_part1 (F := F) main_arg4 main_v13 main_v16
-- ==== Kernel.lean ====
abbrev S4x2048x4096 : Shape := ⟨3, ![4, 2048, 4096]⟩
abbrev S4x2048x1 : Shape := ⟨3, ![4, 2048, 1]⟩
abbrev S11008x4096 : Shape := ⟨2, ![11008, 4096]⟩
abbrev S11008x32 : Shape := ⟨2, ![11008, 32]⟩
abbrev S_ : Shape := ⟨0, ![]⟩
abbrev S11264x4096 : Shape := ⟨2, ![11264, 4096]⟩
abbrev S11264x32 : Shape := ⟨2, ![11264, 32]⟩
abbrev S256x4096 : Shape := ⟨2, ![256, 4096]⟩
abbrev S256x32 : Shape := ⟨2, ![256, 32]⟩
abbrev S256x32x128 : Shape := ⟨3, ![256, 32, 128]⟩
abbrev S256x32x1 : Shape := ⟨3, ![256, 32, 1]⟩
abbrev S8192x4096 : Shape := ⟨2, ![8192, 4096]⟩
abbrev S8192x1 : Shape := ⟨2, ![8192, 1]⟩
abbrev S8192x11264 : Shape := ⟨2, ![8192, 11264]⟩
abbrev S2048x1024 : Shape := ⟨2, ![2048, 1024]⟩
abbrev S2048x1 : Shape := ⟨2, ![2048, 1]⟩
abbrev S1024x1024 : Shape := ⟨2, ![1024, 1024]⟩
abbrev S8192x11008 : Shape := ⟨2, ![8192, 11008]⟩
abbrev S4x2048x11008 : Shape := ⟨3, ![4, 2048, 11008]⟩

abbrev nBuf : Space → Nat
  | .hbm => 20
  | .vmem => 17
  | .smem => 0
  | _ => 0

abbrev bufTy : (tb : Table) → Fin (tcTables nBuf tb) → BufTy
  | .hbm, ⟨0, _⟩ => ⟨S4x2048x4096, .f32⟩
  | .hbm, ⟨1, _⟩ => ⟨S4x2048x1, .f32⟩
  | .hbm, ⟨2, _⟩ => ⟨S11008x4096, .f32⟩
  | .hbm, ⟨3, _⟩ => ⟨S11008x32, .f32⟩
  | .hbm, ⟨4, _⟩ => ⟨S11008x32, .f32⟩
  | .hbm, ⟨5, _⟩ => ⟨S_, .i32⟩
  | .hbm, ⟨6, _⟩ => ⟨S_, .f32⟩
  | .hbm, ⟨7, _⟩ => ⟨S11264x4096, .f32⟩
  | .hbm, ⟨8, _⟩ => ⟨S_, .i32⟩
  | .hbm, ⟨9, _⟩ => ⟨S_, .f32⟩
  | .hbm, ⟨10, _⟩ => ⟨S11264x32, .f32⟩
  | .hbm, ⟨11, _⟩ => ⟨S_, .i32⟩
  | .hbm, ⟨12, _⟩ => ⟨S_, .f32⟩
  | .hbm, ⟨13, _⟩ => ⟨S11264x32, .f32⟩
  | .hbm, ⟨14, _⟩ => ⟨S11264x4096, .bf16⟩
  | .hbm, ⟨15, _⟩ => ⟨S8192x4096, .f32⟩
  | .hbm, ⟨16, _⟩ => ⟨S8192x1, .f32⟩
  | .hbm, ⟨17, _⟩ => ⟨S8192x11264, .f32⟩
  | .hbm, ⟨18, _⟩ => ⟨S8192x11008, .f32⟩
  | .hbm, ⟨19, _⟩ => ⟨S4x2048x11008, .f32⟩
  | .local _ .vmem, ⟨0, _⟩ => ⟨S256x4096, .f32⟩
  | .local _ .vmem, ⟨1, _⟩ => ⟨S256x4096, .f32⟩
  | .local _ .vmem, ⟨2, _⟩ => ⟨S256x32, .f32⟩
  | .local _ .vmem, ⟨3, _⟩ => ⟨S256x32, .f32⟩
  | .local _ .vmem, ⟨4, _⟩ => ⟨S256x32, .f32⟩
  | .local _ .vmem, ⟨5, _⟩ => ⟨S256x32, .f32⟩
  | .local _ .vmem, ⟨6, _⟩ => ⟨S256x4096, .bf16⟩
  | .local _ .vmem, ⟨7, _⟩ => ⟨S256x4096, .bf16⟩
  | .local _ .vmem, ⟨8, _⟩ => ⟨S2048x1024, .f32⟩
  | .local _ .vmem, ⟨9, _⟩ => ⟨S2048x1024, .f32⟩
  | .local _ .vmem, ⟨10, _⟩ => ⟨S2048x1, .f32⟩
  | .local _ .vmem, ⟨11, _⟩ => ⟨S2048x1, .f32⟩
  | .local _ .vmem, ⟨12, _⟩ => ⟨S1024x1024, .bf16⟩
  | .local _ .vmem, ⟨13, _⟩ => ⟨S1024x1024, .bf16⟩
  | .local _ .vmem, ⟨14, _⟩ => ⟨S2048x1024, .f32⟩
  | .local _ .vmem, ⟨15, _⟩ => ⟨S2048x1024, .f32⟩
  | .local _ .vmem, ⟨16, _⟩ => ⟨S2048x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_c_0 : Ref sig .tc := ⟨.hbm, 8, rfl⟩
abbrev main_call1_v0 : Ref sig .tc := ⟨.hbm, 9, rfl⟩
abbrev main_v1 : Ref sig .tc := ⟨.hbm, 10, rfl⟩
abbrev main_c_1 : Ref sig .tc := ⟨.hbm, 11, rfl⟩
abbrev main_call2_v0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![44], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨3, ![4, 11, 4], ![false, false, false]⟩

def k1_cond2 (i : grid1.Coords) : BitVec 1 :=
  let arg2 : BitVec 32 := BitVec.ofNat 32 (i 2).val
  let c3_i32 : BitVec 32 := 3#32
  let v18 : BitVec 1 := Scalar.cmpi .eq arg2 c3_i32
  let v19 : BitVec 32 := Scalar.extui v18
  let c0_i32_10 : BitVec 32 := 0#32
  let v20 : BitVec 1 := Scalar.cmpi .ne v19 c0_i32_10
  v20

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, false]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, true]

abbrev stage1_3 : Fin 2 → Memref sig .tc .vmem S2048x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  pads_S11008x4096_S11264x4096_02560_000 : S11008x4096.Pads (![0, 0] : Fin 2 → Nat) ![256, 0] ![0, 0] S11264x4096
  h_S_ : 0 < S_.numel
  pads_S11008x32_S11264x32_02560_000 : S11008x32.Pads (![0, 0] : Fin 2 → Nat) ![256, 0] ![0, 0] S11264x32
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  shapeCasts_S256x4096_S256x32x128 : S256x4096.ShapeCasts S256x32x128
  inb_S256x32_S256x32_0_0 : ∀ a, (![0, 0] : Fin 2 → Nat) a + S256x32.size a ≤ S256x32.size a
  h_S256x32 : 0 < S256x32.numel
  shapeCasts_S256x32_S256x32 : S256x32.ShapeCasts S256x32
  shapeCasts_S256x32_S256x32x1 : S256x32.ShapeCasts S256x32x1
  broadcasts_S256x32x1_S256x32x128 : S256x32x1.Broadcasts S256x32x128
  shapeCasts_S256x32x128_S256x4096 : S256x32x128.ShapeCasts S256x4096
  bitsLt_bf16_f32 : FTy.bits .bf16 < FTy.bits .f32
  packedbf16_S256x4096_S256x4096_0_0 : (Rect.unit (s := S256x4096) ![0, 0] S256x4096.size inb_S256x4096_S256x4096_0_0).PackedRows (EltTy.packing .bf16)
  shapeCasts_S4x2048x4096_S8192x4096 : S4x2048x4096.ShapeCasts S8192x4096
  shapeCasts_S4x2048x1_S8192x1 : S4x2048x1.ShapeCasts S8192x1
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x1024 : S2048x1.Broadcasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  slices_S8192x11264_S8192x11008_0_0 : S8192x11264.Slices ![0, 0] S8192x11008
  shapeCasts_S8192x11008_S4x2048x11008 : S8192x11008.ShapeCasts S4x2048x11008
  dot_S2048x1024_S1024x1024_S2048x1024_1_1_0_0_n_n_wf : DotDims.WF S2048x1024 S1024x1024 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S11264x4096.size a
  hwx0_0 : ∀ i : grid0.Coords, EltTy.bits .f32 = 32 ∨ (Rect.block (s := S11264x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x32.size a ≤ S11264x32.size a
  hwx0_1 : ∀ i : grid0.Coords, EltTy.bits .f32 = 32 ∨ (Rect.block (s := S11264x32) S256x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x32.size a ≤ S11264x32.size a
  hwx0_2 : ∀ i : grid0.Coords, EltTy.bits .f32 = 32 ∨ (Rect.block (s := S11264x32) S256x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S11264x4096.size a
  hwx0_3 : ∀ i : grid0.Coords, EltTy.bits .bf16 = 32 ∨ (Rect.block (s := S11264x4096) S256x4096.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S8192x4096.size a
  hwx1_0 : ∀ i : grid1.Coords, EltTy.bits .f32 = 32 ∨ (Rect.block (s := S8192x4096) S2048x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1.size a ≤ S8192x1.size a
  hwx1_1 : ∀ i : grid1.Coords, EltTy.bits .f32 = 32 ∨ (Rect.block (s := S8192x1) S2048x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S11264x4096.size a
  hwx1_2 : ∀ i : grid1.Coords, EltTy.bits .bf16 = 32 ∨ (Rect.block (s := S11264x4096) S1024x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x1024.size a ≤ S8192x11264.size a
  hwx1_3 : ∀ i : grid1.Coords, EltTy.bits .f32 = 32 ∨ (Rect.block (s := S8192x11264) S2048x1024.size (cc1_transform_3 i) (hinb1_3 i)).WholeWords (EltTy.packing .f32)

variable [Facts₀]

def dot_S2048x1024_S1024x1024_S2048x1024_1_1_0_0_n_n : DotDims S2048x1024 S1024x1024 S2048x1024 where
  lhsContracting := [1]
  rhsContracting := [1]
  lhsNonContracting := [0]
  rhsNonContracting := [0]
  lhsBatch := []
  rhsBatch := []
  wf := dot_S2048x1024_S1024x1024_S2048x1024_1_1_0_0_n_n_wf

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v4) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S2048x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S2048x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4x2048x1 : Shape := ⟨3, ![4, 2048, 1]⟩
abbrev S11008x4096 : Shape := ⟨2, ![11008, 4096]⟩
abbrev S11008x32 : Shape := ⟨2, ![11008, 32]⟩
abbrev S11008x32x128 : Shape := ⟨3, ![11008, 32, 128]⟩
abbrev S11008x32x1 : Shape := ⟨3, ![11008, 32, 1]⟩
abbrev S4x2048x11008 : Shape := ⟨3, ![4, 2048, 11008]⟩

abbrev nBuf : Space → Nat
  | .hbm => 16
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4x2048x1, .f32⟩
  | .hbm, ⟨2, _⟩ => ⟨S11008x4096, .f32⟩
  | .hbm, ⟨3, _⟩ => ⟨S11008x32, .f32⟩
  | .hbm, ⟨4, _⟩ => ⟨S11008x32, .f32⟩
  | .hbm, ⟨5, _⟩ => ⟨S4x2048x4096, .f32⟩
  | .hbm, ⟨6, _⟩ => ⟨S4x2048x4096, .f32⟩
  | .hbm, ⟨7, _⟩ => ⟨S11008x32x128, .f32⟩
  | .hbm, ⟨8, _⟩ => ⟨S11008x32x1, .f32⟩
  | .hbm, ⟨9, _⟩ => ⟨S11008x32x128, .f32⟩
  | .hbm, ⟨10, _⟩ => ⟨S11008x32x128, .f32⟩
  | .hbm, ⟨11, _⟩ => ⟨S11008x32x1, .f32⟩
  | .hbm, ⟨12, _⟩ => ⟨S11008x32x128, .f32⟩
  | .hbm, ⟨13, _⟩ => ⟨S11008x32x128, .f32⟩
  | .hbm, ⟨14, _⟩ => ⟨S11008x4096, .f32⟩
  | .hbm, ⟨15, _⟩ => ⟨S4x2048x11008, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]

class Facts₀ : Prop where
  bcast_S4x2048x1_S4x2048x4096_0_1_2 : S4x2048x1.BroadcastsInDim S4x2048x4096 (![0, 1, 2] : Fin 3 → Fin S4x2048x4096.rank)
  shapeCasts_S11008x4096_S11008x32x128 : S11008x4096.ShapeCasts S11008x32x128
  bcast_S11008x32_S11008x32x1_0_1 : S11008x32.BroadcastsInDim S11008x32x1 (![0, 1] : Fin 2 → Fin S11008x32x1.rank)
  bcast_S11008x32x1_S11008x32x128_0_1_2 : S11008x32x1.BroadcastsInDim S11008x32x128 (![0, 1, 2] : Fin 3 → Fin S11008x32x128.rank)
  shapeCasts_S11008x32x128_S11008x4096 : S11008x32x128.ShapeCasts S11008x4096
  dot_S4x2048x4096_S11008x4096_S4x2048x11008_2_1_01_0_n_n_wf : DotDims.WF S4x2048x4096 S11008x4096 S4x2048x11008 [2] [1] [0, 1] [0] [] []

variable [Facts₀]

def dot_S4x2048x4096_S11008x4096_S4x2048x11008_2_1_01_0_n_n : DotDims S4x2048x4096 S11008x4096 S4x2048x11008 where
  lhsContracting := [2]
  rhsContracting := [1]
  lhsNonContracting := [0, 1]
  rhsNonContracting := [0]
  lhsBatch := []
  rhsBatch := []
  wf := dot_S4x2048x4096_S11008x4096_S4x2048x11008_2_1_01_0_n_n_wf

class Facts : Prop extends Facts₀ where

variable [Facts]
-- ==== Proof.Kernel.Dequant.lean ====
/-
  Region 0 of @main (the weight dequantisation), at a parameter `V`: the contents of the TensorCore's buffers when the
  region is entered. Each grid point t (44 of them) sees rows 256·t … 256·t+255 of the padded weight, scale and offset
  arrays; the body loads the three blocks whole, computes (w − offset)·scale group by group (the 4096 columns are 32
  groups of 128) and stores the result, narrowed to bf16, over the whole output block. Nothing is carried between
  points. Stated here: what the output's staging buffer holds after the body as a function of the three input blocks,
  the body's triple, the proof data of the pipeline and its body obligation at every point.
-/
import proofs.«151683_j63213328662919_1_alg».proof.Proof.Gen.Kernel.Launch
import proofs.«151683_j63213328662919_1_alg».proof.Proof.Gen.Kernel.Skeleton
import proofs.«151683_j63213328662919_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`: rows 256·t … of its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is `V`'s
    and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev rWt : Rect S256x4096 := Rect.unit (s := S256x4096) ![0, 0] S256x4096.size inb_S256x4096_S256x4096_0_0
abbrev rGr : Rect S256x32 := Rect.unit (s := S256x32) ![0, 0] S256x32.size inb_S256x32_S256x32_0_0

/-- The output block after the body, from the weight block `x0`, the scale block `x1` and the offset block `x2`:
    its one store, which covers it. -/
def out0_3 (x0 : Vec F S256x4096 .f32) (x1 : Vec F S256x32 .f32) (x2 : Vec F S256x32 .f32) : Vec F S256x4096 .bf16 :=
  View.canon [⟨rWt, k0_pay1 (View.ld x0 rWt) (View.ld x1 rGr) (View.ld x2 rGr)⟩]

theorem cover0_3 (p0 : Vec F S256x4096 .bf16) (y : S256x4096.Idx) :
    ∃ pc ∈ ([⟨rWt, p0⟩] : List (View.Piece (Elt F) S256x4096 .bf16)), y ∈ pc.1.set :=
  View.cover_of_tiled [⟨rWt, p0⟩] S256x4096.size (by rfl) y

/-! ## The body's triple -/

set_option maxHeartbeats 1000000 in
/-- On whole staging memrefs, the inputs' at contents `x0`, `x1`, `x2` and the output's at anything, the body runs to
    the continuation holding the inputs' as they were and the output's at `out0_3 x0 x1 x2`. -/
theorem sound_kernel0 (c : Dev nD) (E : Set ℕ) (i : grid0.Coords)
    (arg1 : Memref sig .tc .vmem S256x4096 .f32) (harg1 : arg1.IsWhole) (arg2 : Memref sig .tc .vmem S256x32 .f32) (harg2 : arg2.IsWhole)
    (arg3 : Memref sig .tc .vmem S256x32 .f32) (harg3 : arg3.IsWhole) (arg4 : Memref sig .tc .vmem S256x4096 .bf16) (harg4 : arg4.IsWhole)
    (x0 : Vec F S256x4096 .f32) (x1 : Vec F S256x32 .f32) (x2 : Vec F S256x32 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__dequant_weight_kernel i arg1 harg1 arg2 harg2 arg3 harg3 arg4 harg4) K := by
  simp only [cc0__dequant_weight_kernel_eq_skeleton]; unfold cc0__dequant_weight_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The arrays as the region finds them; after the body at point `t` each input's buffer at its block and the output's
    at `out0_3` of the three input blocks; the scoped buffers and the generator register untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Kernel.MatmulCases.lean ====
/-
  Region 1 of @main (the tiled matrix product), first half: what its three control cases share, and the body run once
  per case. The grid is 4 × 11 × 4 (row tile i, column tile j, reduction step k; point t = (i·11 + j)·4 + k). The body
  resets the accumulator scratch when k = 0, adds the product of the scaled activation tile and the weight tile to it at
  every point, and copies it into the output block when k = 3. So a point is in one of three cases:
    A (k = 0): reset, accumulate; the output block untouched;
    B (k = 1, 2): accumulate over what the point before left; the output block untouched;
    C (k = 3): accumulate over what the point before left, then store the accumulator into the output block.
  Each case's run finds the pieces the scratch and the output block end with.
-/
import proofs.«151683_j63213328662919_1_alg».proof.Proof.Gen.Kernel.Launch
import proofs.«151683_j63213328662919_1_alg».proof.Proof.Gen.Kernel.Skeleton
import proofs.«151683_j63213328662919_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two branch conditions, in closed form over the grid -/

/-- "k = 0": the condition of the reset. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- "k = 3": the condition of the copy into the output block. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where k ≠ 3 the body stores nothing into the output block, and the pipeline does not write it back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The memrefs the body is called with -/

abbrev VO1_3 : View sig .tc .vmem S2048x1024 .f32 := (Memref.whole cc1_stg3_0 : Memref sig .tc .vmem S2048x1024 .f32).view
abbrev ms1_0 (t : Fin cfg1.N) : Memref sig .tc .vmem S2048x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x1024 .f32 := win1_3.stage (cfg1.slots t 3)
abbrev hs1_3 (t : Fin cfg1.N) : (ms1_3 t).IsWhole := hstage1_3 ((cfg1.slots t 3).cast nbuf1_3)
/-- The accumulator: a whole scoped buffer of the kernel's own, passed beside the windows. -/
abbrev scM1 : Memref sig .tc .vmem S2048x1024 .f32 := Memref.whole cc1_scratch0
abbrev VS1 : View sig .tc .vmem S2048x1024 .f32 := scM1.view

/-- The scoped buffers that are neither a staging buffer of this call nor the accumulator (the other call's staging
    buffers), each at some contents: carried through the region unopened. -/
abbrev restBut1 (c : Dev nD) : sProp 𝕄 :=
  Pipeline.scopedRestBut (Ix := Unit) (Name := ℕ) (U := UR sig nD τ) (Lvl := ℕ) (Val := Elt F) spec1 c [cc1_scratch0]

/-- What the launch hands the region of the scoped buffers, with the accumulator split off as a memref owned at some
    contents. -/
theorem PhiA1_eq (c : Dev nD) :
    (Pipeline.ΦA spec1 c : sProp 𝕄)
      = iprop(iprop((∃ d, owns (c : Thread nD τ) scM1 fullShare d) ∗ restBut1 c) ∗ (∃ r, prngReg c r)) := by
  unfold Pipeline.ΦA
  rw [Pipeline.scopedRest_split_of_list spec1 c [cc1_scratch0] (by decide) (by decide)]
  simp only [scM1, owns_whole, bigSepL]
  try rfl

/-! ## The body, run once per case -/

set_option maxHeartbeats 4000000 in
/-- CASE A (k = 0). The accumulator at anything; the output block at contents `xi3`, handed back untouched. -/
noncomputable def kernelRun1_A (c : Dev nD) (i : grid1.Coords) (arg3 : Memref sig .tc .vmem S2048x1024 .f32) (harg3 : arg3.IsWhole) (arg4 : Memref sig .tc .vmem S2048x1 .f32) (harg4 : arg4.IsWhole) (arg5 : Memref sig .tc .vmem S1024x1024 .bf16) (harg5 : arg5.IsWhole) (arg6 : Memref sig .tc .vmem S2048x1024 .f32) (harg6 : arg6.IsWhole) (arg7 : Memref sig .tc .vmem S2048x1024 .f32) (harg7 : arg7.IsWhole) (hc0 : cond1_0 i) (hc1 : ¬cond1_1 i)
    (x0 : Vec F S2048x1024 .f32) (x1 : Vec F S2048x1 .f32) (x2 : Vec F S1024x1024 .bf16) :
    Σ' (L3 : List (View.Piece (Elt F) S2048x1024 .f32)), { LS0 : List (View.Piece (Elt F) S2048x1024 .f32) //
      ∀ (xi3 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 4000000 in
/-- CASE B (k = 1, 2). The accumulator at the contents `xs0` the point before left; the output block at contents
    `xi3`, handed back untouched. -/
noncomputable def kernelRun1_B (c : Dev nD) (i : grid1.Coords) (arg3 : Memref sig .tc .vmem S2048x1024 .f32) (harg3 : arg3.IsWhole) (arg4 : Memref sig .tc .vmem S2048x1 .f32) (harg4 : arg4.IsWhole) (arg5 : Memref sig .tc .vmem S1024x1024 .bf16) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : ¬cond1_1 i)
    (x0 : Vec F S2048x1024 .f32) (x1 : Vec F S2048x1 .f32) (x2 : Vec F S1024x1024 .bf16) (xs0 : Vec F S2048x1024 .f32) :
    Σ' (L3 : List (View.Piece (Elt F) S2048x1024 .f32)), { LS0 : List (View.Piece (Elt F) S2048x1024 .f32) //
      ∀ (xi3 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 4000000 in
/-- CASE C (k = 3). The accumulator at the contents `xs0` the point before left; the output block at anything, left
    with the pieces `L3` written. -/
noncomputable def kernelRun1_C (c : Dev nD) (i : grid1.Coords) (arg3 : Memref sig .tc .vmem S2048x1024 .f32) (harg3 : arg3.IsWhole) (arg4 : Memref sig .tc .vmem S2048x1 .f32) (harg4 : arg4.IsWhole) (arg5 : Memref sig .tc .vmem S1024x1024 .bf16) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : cond1_1 i)
    (x0 : Vec F S2048x1024 .f32) (x1 : Vec F S2048x1 .f32) (x2 : Vec F S1024x1024 .bf16) (xs0 : Vec F S2048x1024 .f32) :
    Σ' (L3 : List (View.Piece (Elt F) S2048x1024 .f32)), { LS0 : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Hand

end
-- ==== Proof.Kernel.Matmul.lean ====
/-
  Region 1 of @main (the tiled matrix product), second half, at a parameter `V` (the buffers' contents when the region
  is entered): what each case leaves in the accumulator and in the output block, read back from the pieces its run found;
  what they hold after each point, by recursion on the point (case A starts afresh, cases B and C go on from what the
  point before left in the accumulator); the region's invariant, which carries the accumulator at those contents from
  one point to the next; the proof data; the body obligation at every point.
-/
import proofs.«151683_j63213328662919_1_alg».proof.Proof.Kernel.MatmulCases

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

/-- Case A stores nothing into the output block: a placeholder nothing consults. -/
def out1_A_3 (c : Dev nD) (i : grid1.Coords) (arg3 : Memref sig .tc .vmem S2048x1024 .f32) (harg3 : arg3.IsWhole) (arg4 : Memref sig .tc .vmem S2048x1 .f32) (harg4 : arg4.IsWhole) (arg5 : Memref sig .tc .vmem S1024x1024 .bf16) (harg5 : arg5.IsWhole) (arg6 : Memref sig .tc .vmem S2048x1024 .f32) (harg6 : arg6.IsWhole) (arg7 : Memref sig .tc .vmem S2048x1024 .f32) (harg7 : arg7.IsWhole) (hc0 : cond1_0 i) (hc1 : ¬cond1_1 i) (x0 : Vec F S2048x1024 .f32) (x1 : Vec F S2048x1 .f32) (x2 : Vec F S1024x1024 .bf16) : Vec F S2048x1024 .f32 :=
  VO1_3.read (Elt F) (VO1_3.writes (Elt F) VO1_3.junk (kernelRun1_A c i arg3 harg3 arg4 harg4 arg5 harg5 arg6 harg6 arg7 harg7 hc0 hc1 x0 x1 x2).1)
theorem scover1_A (c : Dev nD) (i : grid1.Coords) (arg3 : Memref sig .tc .vmem S2048x1024 .f32) (harg3 : arg3.IsWhole) (arg4 : Memref sig .tc .vmem S2048x1 .f32) (harg4 : arg4.IsWhole) (arg5 : Memref sig .tc .vmem S1024x1024 .bf16) (harg5 : arg5.IsWhole) (arg6 : Memref sig .tc .vmem S2048x1024 .f32) (harg6 : arg6.IsWhole) (arg7 : Memref sig .tc .vmem S2048x1024 .f32) (harg7 : arg7.IsWhole) (hc0 : cond1_0 i) (hc1 : ¬cond1_1 i) (x0 : Vec F S2048x1024 .f32) (x1 : Vec F S2048x1 .f32) (x2 : Vec F S1024x1024 .bf16) (y : S2048x1024.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S2048x1024.size (by sl_kernel_rfl) y
/-- What case A leaves in the accumulator. -/
def sout1_A (c : Dev nD) (i : grid1.Coords) (arg3 : Memref sig .tc .vmem S2048x1024 .f32) (harg3 : arg3.IsWhole) (arg4 : Memref sig .tc .vmem S2048x1 .f32) (harg4 : arg4.IsWhole) (arg5 : Memref sig .tc .vmem S1024x1024 .bf16) (harg5 : arg5.IsWhole) (arg6 : Memref sig .tc .vmem S2048x1024 .f32) (harg6 : arg6.IsWhole) (arg7 : Memref sig .tc .vmem S2048x1024 .f32) (harg7 : arg7.IsWhole) (hc0 : cond1_0 i) (hc1 : ¬cond1_1 i) (x0 : Vec F S2048x1024 .f32) (x1 : Vec F S2048x1 .f32) (x2 : Vec F S1024x1024 .bf16) : Vec F S2048x1024 .f32 :=
  VS1.read (Elt F) (VS1.writes (Elt F) VS1.junk (kernelRun1_A c i arg3 harg3 arg4 harg4 arg5 harg5 arg6 harg6 arg7 harg7 hc0 hc1 x0 x1 x2).2.1)

/-- Case B stores nothing into the output block: a placeholder nothing consults. -/
def out1_B_3 (c : Dev nD) (i : grid1.Coords) (arg3 : Memref sig .tc .vmem S2048x1024 .f32) (harg3 : arg3.IsWhole) (arg4 : Memref sig .tc .vmem S2048x1 .f32) (harg4 : arg4.IsWhole) (arg5 : Memref sig .tc .vmem S1024x1024 .bf16) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : ¬cond1_1 i) (x0 : Vec F S2048x1024 .f32) (x1 : Vec F S2048x1 .f32) (x2 : Vec F S1024x1024 .bf16) (xs0 : Vec F S2048x1024 .f32) : Vec F S2048x1024 .f32 :=
  VO1_3.read (Elt F) (VO1_3.writes (Elt F) VO1_3.junk (kernelRun1_B c i arg3 harg3 arg4 harg4 arg5 harg5 arg6 harg6 arg7 harg7 hc0 hc1 x0 x1 x2 xs0).1)
theorem scover1_B (c : Dev nD) (i : grid1.Coords) (arg3 : Memref sig .tc .vmem S2048x1024 .f32) (harg3 : arg3.IsWhole) (arg4 : Memref sig .tc .vmem S2048x1 .f32) (harg4 : arg4.IsWhole) (arg5 : Memref sig .tc .vmem S1024x1024 .bf16) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : ¬cond1_1 i) (x0 : Vec F S2048x1024 .f32) (x1 : Vec F S2048x1 .f32) (x2 : Vec F S1024x1024 .bf16) (xs0 : Vec F S2048x1024 .f32) (y : S2048x1024.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S2048x1024.size (by sl_kernel_rfl) y
/-- What case B leaves in the accumulator. -/
def sout1_B (c : Dev nD) (i : grid1.Coords) (arg3 : Memref sig .tc .vmem S2048x1024 .f32) (harg3 : arg3.IsWhole) (arg4 : Memref sig .tc .vmem S2048x1 .f32) (harg4 : arg4.IsWhole) (arg5 : Memref sig .tc .vmem S1024x1024 .bf16) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : ¬cond1_1 i) (x0 : Vec F S2048x1024 .f32) (x1 : Vec F S2048x1 .f32) (x2 : Vec F S1024x1024 .bf16) (xs0 : Vec F S2048x1024 .f32) : Vec F S2048x1024 .f32 :=
  VS1.read (Elt F) (VS1.writes (Elt F) VS1.junk (kernelRun1_B c i arg3 harg3 arg4 harg4 arg5 harg5 arg6 harg6 arg7 harg7 hc0 hc1 x0 x1 x2 xs0).2.1)

theorem cover1_C_3 (c : Dev nD) (i : grid1.Coords) (arg3 : Memref sig .tc .vmem S2048x1024 .f32) (harg3 : arg3.IsWhole) (arg4 : Memref sig .tc .vmem S2048x1 .f32) (harg4 : arg4.IsWhole) (arg5 : Memref sig .tc .vmem S1024x1024 .bf16) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : cond1_1 i) (x0 : Vec F S2048x1024 .f32) (x1 : Vec F S2048x1 .f32) (x2 : Vec F S1024x1024 .bf16) (xs0 : Vec F S2048x1024 .f32) (y : S2048x1024.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S2048x1024.size (by sl_kernel_rfl) y
/-- What case C leaves in the output block. -/
def out1_C_3 (c : Dev nD) (i : grid1.Coords) (arg3 : Memref sig .tc .vmem S2048x1024 .f32) (harg3 : arg3.IsWhole) (arg4 : Memref sig .tc .vmem S2048x1 .f32) (harg4 : arg4.IsWhole) (arg5 : Memref sig .tc .vmem S1024x1024 .bf16) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : cond1_1 i) (x0 : Vec F S2048x1024 .f32) (x1 : Vec F S2048x1 .f32) (x2 : Vec F S1024x1024 .bf16) (xs0 : Vec F S2048x1024 .f32) : Vec F S2048x1024 .f32 :=
  VO1_3.read (Elt F) (VO1_3.writes (Elt F) VO1_3.junk (kernelRun1_C c i arg3 harg3 arg4 harg4 arg5 harg5 arg6 harg6 arg7 harg7 hc0 hc1 x0 x1 x2 xs0).1)
theorem scover1_C (c : Dev nD) (i : grid1.Coords) (arg3 : Memref sig .tc .vmem S2048x1024 .f32) (harg3 : arg3.IsWhole) (arg4 : Memref sig .tc .vmem S2048x1 .f32) (harg4 : arg4.IsWhole) (arg5 : Memref sig .tc .vmem S1024x1024 .bf16) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : cond1_1 i) (x0 : Vec F S2048x1024 .f32) (x1 : Vec F S2048x1 .f32) (x2 : Vec F S1024x1024 .bf16) (xs0 : Vec F S2048x1024 .f32) (y : S2048x1024.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S2048x1024.size (by sl_kernel_rfl) y
/-- What case C leaves in the accumulator. -/
def sout1_C (c : Dev nD) (i : grid1.Coords) (arg3 : Memref sig .tc .vmem S2048x1024 .f32) (harg3 : arg3.IsWhole) (arg4 : Memref sig .tc .vmem S2048x1 .f32) (harg4 : arg4.IsWhole) (arg5 : Memref sig .tc .vmem S1024x1024 .bf16) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : cond1_1 i) (x0 : Vec F S2048x1024 .f32) (x1 : Vec F S2048x1 .f32) (x2 : Vec F S1024x1024 .bf16) (xs0 : Vec F S2048x1024 .f32) : Vec F S2048x1024 .f32 :=
  VS1.read (Elt F) (VS1.writes (Elt F) VS1.junk (kernelRun1_C c i arg3 harg3 arg4 harg4 arg5 harg5 arg6 harg6 arg7 harg7 hc0 hc1 x0 x1 x2 xs0).2.1)

/-! ## What the output block and the accumulator hold after each point -/

/-- After the body at position `n`: (the output block, the accumulator). The case is the one `n mod 4` selects; cases B
    and C run over what position `n − 1` left in the accumulator. -/
def outsAt1 (c : Dev nD) : (n : ℕ) → n < cfg1.N → Vec F S2048x1024 .f32 × Vec F S2048x1024 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩),
              sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      if h1 : (n + 1) % 4 = 3 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩),
         sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2,
         sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2,
         sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (out1_A_3 c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t),
      sout1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B_3 c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2,
      sout1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant: the accumulator carried from point to point -/

/-- Before position `n`: before the first point what the launch hands over (the accumulator at anything); afterwards the
    accumulator at what the point before left, the other scoped buffers unopened, the generator register at some state. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ restBut1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare ((outsAt1 V c n hn).2) ∗ restBut1 c) ∗ (∃ r, prngReg c r)) := rfl

theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ restBut1 c) ∗ (∃ r, prngReg c r)) := by
  cases n with
  | zero => exact absurd rfl hz
  | succ n => rfl

/-! ## The pipeline's proof data -/

/-- The arrays as the region finds them; after the body at point `t` each input's buffer at its block and the output's
    at `outsAt1`'s first component; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point: the inputs' memrefs hold their blocks; `t mod 4` says which case the point is in; the
    invariant hands the body the accumulator at what the point before left (at anything at the very first point) and
    takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 176 := lt_of_lt_of_eq t.isLt (show cfg1.N = 176 from N_1)
  by_cases h0 : t.val % 4 = 0
  · by_cases h1 : t.val % 4 = 3
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_A V c t h0 h1]
      unfold sout1_A; (try dsimp only)
      by_cases hz : t.val = 0
      · rw [PhiS1_castSucc V c t, PhiS1_zero V c _ _ hz, PhiA1_eq]
        iintro ⟨⟨⟨HS0, Hrest⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_A c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HS0, Hrest⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_A c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
  · have hz : t.val ≠ 0 := fun hz => h0 (by rw [hz])
    by_cases h1 : t.val % 4 = 3
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_3 sout1_C; (try dsimp only)
      · rw [PhiS1_castSucc V c t, PhiS1_pos V c _ _ hz]
        iintro ⟨⟨⟨HS0, Hrest⟩, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_C c _ _ _ _ _ _ _ _ _ _ _ _ _ _ _ _ _)
            iexact Hrest
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B; (try dsimp only)
      · rw [PhiS1_castSucc V c t, PhiS1_pos V c _ _ hz]
        iintro ⟨⟨⟨HS0, Hrest⟩, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_B c _ _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives it back: the accumulator's contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 176 := N_1; omega
  rw [show (dat1 V c).Φ (Fin.last cfg1.N) = PhiS1 V c (Fin.last cfg1.N).val (Nat.le_of_lt_succ (Fin.last cfg1.N).isLt) from rfl,
    PhiS1_pos V c _ _ ht, PhiA1_eq]
  iintro ⟨⟨HS0, Hrest⟩, Hg⟩
  isplitl [HS0 Hrest]
  · isplitl [HS0]
    · iexists _; iexact HS0
    iexact Hrest
  iexact Hg

end Cert.Kernel.Hand

end
-- ==== Proof.Kernel.Whole.lean ====
/-
  The run of @main as a whole: host stretches (three zero-paddings of the weight, scale and offset arrays from 11008 to
  11264 rows; two reshapes of the activations and their per-row scales from [4, 2048, ·] to [8192, ·]; a slice back to
  11008 columns and a reshape to [4, 2048, 11008]) around the two kernel regions. The contents of the TensorCore's
  unscoped buffers are named at each of the eleven boundaries: a host stretch applies its operations; a region leaves its
  output array at what its write-backs fold to and everything else as it was. Over these names each region is a segment
  whose entry and exit states are the neighbouring boundaries', and the launch theorem for a list of segments gives: every
  weakly fair execution terminates, nothing faults, and every unscoped buffer ends at the last boundary's contents.
-/
import proofs.«151683_j63213328662919_1_alg».proof.Proof.Kernel.Dequant
import proofs.«151683_j63213328662919_1_alg».proof.Proof.Kernel.Matmul
import proofs.«151683_j63213328662919_1_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- At launch. -/
abbrev B0 : Dev nD → Valuation τ sig (Elt F) := fun c b => m (c, b)
abbrev B1 : Dev nD → Valuation τ sig (Elt F) := fun c => StableHlo.after hostOps0 (B0 m c)
abbrev B2 : Dev nD → Valuation τ sig (Elt F) := fun c => StableHlo.after hostOps0_1 (B1 m c)
abbrev B3 : Dev nD → Valuation τ sig (Elt F) := fun c => StableHlo.after hostOps0_2 (B2 m c)
abbrev B4 : Dev nD → Valuation τ sig (Elt F) := fun c => StableHlo.after hostOps0_3 (B3 m c)
abbrev B5 : Dev nD → Valuation τ sig (Elt F) := fun c => StableHlo.after hostOps0_4 (B4 m c)
/-- After the three paddings: what region 0 is entered from. -/
abbrev B6 : Dev nD → Valuation τ sig (Elt F) := fun c => StableHlo.after hostOps0_5 (B5 m c)
/-- The same read at the TensorCore's references (what region 0's proof data take). -/
abbrev E0 : (c : Dev nD) → (b : Ref sig .tc) → Buf (Elt F) ((c : Thread nD τ).loc b) := fun c b => B6 m c b
/-- At region 0's exit: its arrays at what the pipeline leaves, every other buffer as entered. -/
def B7 (c : Dev nD) : Valuation τ sig (Elt F) :=
  Pipeline.withArrays spec0 c (B6 m c) fun w => (dat0 (E0 m) c).arrAt w cfg0.N
theorem B7_arr (c : Dev nD) (w : Fin cfg0.W) :
    B7 m c (Proc.devRef .tc (Pipeline.arrRef spec0 w)) = (dat0 (E0 m) c).arrAt w cfg0.N := by
  unfold B7; exact Pipeline.withArrays_arr spec0 launch0.win.arr_inj c _ _ w
theorem B7_of_ne (c : Dev nD) (b : Ref sig .tc) (hb : ∀ w, Pipeline.arrRef spec0 w ≠ b) :
    B7 m c (Proc.devRef .tc b) = B6 m c (Proc.devRef .tc b) := by
  unfold B7; exact Pipeline.withArrays_of_ne spec0 c _ _ b hb
abbrev X0 : (c : Dev nD) → (b : Ref sig .tc) → Buf (Elt F) ((c : Thread nD τ).loc b) := fun c b => B7 m c b
theorem hF0 (c : Dev nD) (w : Fin cfg0.W) : (dat0 (E0 m) c).arrAt w cfg0.N = X0 m c (Pipeline.arrRef spec0 w) :=
  (B7_arr m c w).symm
theorem hrest0 (c : Dev nD) : ∀ b, b ∉ Finset.univ.image (Pipeline.arrRef spec0) → X0 m c b = E0 m c b :=
  fun b hb => B7_of_ne m c b fun w e => hb (Finset.mem_image.mpr ⟨w, Finset.mem_univ _, e⟩)

/-- After the two reshapes: what region 1 is entered from. -/
abbrev B8 : Dev nD → Valuation τ sig (Elt F) := fun c => StableHlo.after hostOps1 (B7 m c)
abbrev E1 : (c : Dev nD) → (b : Ref sig .tc) → Buf (Elt F) ((c : Thread nD τ).loc b) := fun c b => B8 m c b
/-- At region 1's exit. -/
def B9 (c : Dev nD) : Valuation τ sig (Elt F) :=
  Pipeline.withArrays spec1 c (B8 m c) fun w => (dat1 (E1 m) c).arrAt w cfg1.N
theorem B9_arr (c : Dev nD) (w : Fin cfg1.W) :
    B9 m c (Proc.devRef .tc (Pipeline.arrRef spec1 w)) = (dat1 (E1 m) c).arrAt w cfg1.N := by
  unfold B9; exact Pipeline.withArrays_arr spec1 launch1.win.arr_inj c _ _ w
theorem B9_of_ne (c : Dev nD) (b : Ref sig .tc) (hb : ∀ w, Pipeline.arrRef spec1 w ≠ b) :
    B9 m c (Proc.devRef .tc b) = B8 m c (Proc.devRef .tc b) := by
  unfold B9; exact Pipeline.withArrays_of_ne spec1 c _ _ b hb
abbrev X1 : (c : Dev nD) → (b : Ref sig .tc) → Buf (Elt F) ((c : Thread nD τ).loc b) := fun c b => B9 m c b
theorem hF1 (c : Dev nD) (w : Fin cfg1.W) : (dat1 (E1 m) c).arrAt w cfg1.N = X1 m c (Pipeline.arrRef spec1 w) :=
  (B9_arr m c w).symm
theorem hrest1 (c : Dev nD) : ∀ b, b ∉ Finset.univ.image (Pipeline.arrRef spec1) → X1 m c b = E1 m c b :=
  fun b hb => B9_of_ne m c b fun w e => hb (Finset.mem_image.mpr ⟨w, Finset.mem_univ _, e⟩)

/-- After the slice and the last reshape: the end. -/
abbrev B10 : Dev nD → Valuation τ sig (Elt F) := fun c => StableHlo.after hostOps2 (B9 m c)

/-! ## A buffer nothing writes ends as launched -/

/-- A buffer that no host stretch writes and that is no array of either region holds its launch contents at the end. -/
theorem B10_of (c : Dev nD) (r : Ref sig .tc)
    (h0 : r ∉ hostOps0_W) (h1 : r ∉ hostOps0_1_W) (h2 : r ∉ hostOps0_2_W) (h3 : r ∉ hostOps0_3_W) (h4 : r ∉ hostOps0_4_W)
    (h5 : r ∉ hostOps0_5_W) (h7 : r ∉ hostOps1_W) (h9 : r ∉ hostOps2_W)
    (ha0 : ∀ w, Pipeline.arrRef spec0 w ≠ r) (ha1 : ∀ w, Pipeline.arrRef spec1 w ≠ r) :
    B10 m c (Proc.devRef .tc r) = m ((c : Thread nD τ).loc r) :=
  calc B10 m c (Proc.devRef .tc r)
    _ = B9 m c (Proc.devRef .tc r) := StableHlo.after_of_writes_sub hostOps2 _ hostOps2_writes h9
    _ = B8 m c (Proc.devRef .tc r) := B9_of_ne m c r ha1
    _ = B7 m c (Proc.devRef .tc r) := StableHlo.after_of_writes_sub hostOps1 _ hostOps1_writes h7
    _ = B6 m c (Proc.devRef .tc r) := B7_of_ne m c r ha0
    _ = B5 m c (Proc.devRef .tc r) := StableHlo.after_of_writes_sub hostOps0_5 _ hostOps0_5_writes h5
    _ = B4 m c (Proc.devRef .tc r) := StableHlo.after_of_writes_sub hostOps0_4 _ hostOps0_4_writes h4
    _ = B3 m c (Proc.devRef .tc r) := StableHlo.after_of_writes_sub hostOps0_3 _ hostOps0_3_writes h3
    _ = B2 m c (Proc.devRef .tc r) := StableHlo.after_of_writes_sub hostOps0_2 _ hostOps0_2_writes h2
    _ = B1 m c (Proc.devRef .tc r) := StableHlo.after_of_writes_sub hostOps0_1 _ hostOps0_1_writes h1
    _ = B0 m c (Proc.devRef .tc r) := StableHlo.after_of_writes_sub hostOps0 _ hostOps0_writes h0
    _ = m ((c : Thread nD τ).loc r) := rfl

theorem B10_main_arg0 (c : Dev nD) : B10 m c (Proc.devRef .tc main_arg0) = m ((c : Thread nD τ).loc main_arg0) :=
  B10_of m c main_arg0 (by decide) (by decide) (by decide) (by decide) (by decide) (by decide) (by decide) (by decide) (by decide) (by decide)
theorem B10_main_arg1 (c : Dev nD) : B10 m c (Proc.devRef .tc main_arg1) = m ((c : Thread nD τ).loc main_arg1) :=
  B10_of m c main_arg1 (by decide) (by decide) (by decide) (by decide) (by decide) (by decide) (by decide) (by decide) (by decide) (by decide)
theorem B10_main_arg2 (c : Dev nD) : B10 m c (Proc.devRef .tc main_arg2) = m ((c : Thread nD τ).loc main_arg2) :=
  B10_of m c main_arg2 (by decide) (by decide) (by decide) (by decide) (by decide) (by decide) (by decide) (by decide) (by decide) (by decide)
theorem B10_main_arg3 (c : Dev nD) : B10 m c (Proc.devRef .tc main_arg3) = m ((c : Thread nD τ).loc main_arg3) :=
  B10_of m c main_arg3 (by decide) (by decide) (by decide) (by decide) (by decide) (by decide) (by decide) (by decide) (by decide) (by decide)
theorem B10_main_arg4 (c : Dev nD) : B10 m c (Proc.devRef .tc main_arg4) = m ((c : Thread nD τ).loc main_arg4) :=
  B10_of m c main_arg4 (by decide) (by decide) (by decide) (by decide) (by decide) (by decide) (by decide) (by decide) (by decide) (by decide)

/-! ## The proof data family and the thread state -/

/-- Each pipeline's proof data at its region's entry contents: a literal match on the pipeline's index. -/
def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev ride (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W ride

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 over the thread state: entered from every unscoped buffer at `B6`, left at `B7`. Its arrays are
    split out of the unscoped buffers and put back at the exit contents; the generator register goes into the region's
    invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (B6 m c) ∗ ride c)
  post c := iprop(StableHlo.held (c : Thread nD τ) (Pipeline.ucRefs τ sig) (B7 m c) ∗ ride c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (X0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `B8`, left at `B9`. Its arrays are
    split out of the unscoped buffers and put back at the exit contents; the generator register goes into the region's
    invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (B8 m c) ∗ ride c)
  post c := iprop(StableHlo.held (c : Thread nD τ) (Pipeline.ucRefs τ sig) (B9 m c) ∗ ride c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (E1 m) c)
    unfold Pipeline.ΦA
    iintro ⟨Hp, -, Hr⟩
    isplitl [Hr]; · iexact Hr
    iexact Hp
  hout c := by
    rw [Pipeline.ownSems0_none]
    refine .trans (hout1 (E1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (X1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (B0 m)),
    .host (hseg hostOps0_1 hostOps0_1_sub hostOps0_1_fresh (B1 m)),
    .host (hseg hostOps0_2 hostOps0_2_sub hostOps0_2_fresh (B2 m)),
    .host (hseg hostOps0_3 hostOps0_3_sub hostOps0_3_fresh (B3 m)),
    .host (hseg hostOps0_4 hostOps0_4_sub hostOps0_4_fresh (B4 m)),
    .host (hseg hostOps0_5 hostOps0_5_sub hostOps0_5_fresh (B5 m)),
    .region (reg0 m),
    .host (hseg hostOps1 hostOps1_sub hostOps1_fresh (B7 m)),
    .region (reg1 m),
    .host (hseg hostOps2 hostOps2_sub hostOps2_fresh (B9 m)) ]

theorem main_run (c : Dev nD) : main (F := F) c = Pipeline.Seg.run (segs m) := by
  rw [main_chain c, Pipeline.Seg.run_eq_chain]
  rfl

/-- The last thread state without the `owes`. -/
abbrev Tlast (c : Dev nD) : sProp 𝕄 := iprop(StableHlo.held (c : Thread nD τ) (Pipeline.ucRefs τ sig) (B10 m c) ∗ ∃ r, prngReg c r)

set_option backward.isDefEq.respectTransparency.types false in
/-- THE RUN. From any memory with zero counters, every weakly fair execution of @main terminates, nothing faulting, and
    every unscoped buffer of every core ends at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = B10 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ ride c)) (Tₙ := Tlast m)
    (hch := ⟨fun _ => .rfl, fun _ => .rfl, fun _ => .rfl, fun _ => .rfl, fun _ => .rfl, fun _ => .rfl, fun _ => .rfl, fun _ => .rfl,
      fun _ => .rfl, fun _ => .rfl, fun c => by
        show iprop(StableHlo.held (c : Thread nD τ) (Pipeline.ucRefs τ sig) (B10 m c) ∗ ride c)
          ⊢ iprop(Tlast m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B10 m c b)
    (hfin := fun c s' => by
      iintro ⟨⟨Hh, -⟩, HSI⟩
      unfold StableHlo.held
      imodintro
      iapply (pointsTo_read_all (Pipeline.ucRefs τ sig) (fun b => (((c : Thread nD τ)).1, b)) (B10 m c) s')
      isplitl [Hh] <;> iassumption)
    (hQ := fun s h => h)

/-- THE FRAME: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (B10_main_arg0 m c),
     (h c _ (mem_uc main_arg1 (by decide))).trans (B10_main_arg1 m c),
     (h c _ (mem_uc main_arg2 (by decide))).trans (B10_main_arg2 m c),
     (h c _ (mem_uc main_arg3 (by decide))).trans (B10_main_arg3 m c),
     (h c _ (mem_uc main_arg4 (by decide))).trans (B10_main_arg4 m c)⟩) (run_all m ρ)

end Cert.Kernel.Hand

end
-- ==== Proof.KernelIdeal.Dequant.lean ====
/-
  Region 0 of @main (the weight dequantisation), at a parameter `V`: the contents of the TensorCore's buffers when the
  region is entered. Each grid point t (44 of them) sees rows 256·t … 256·t+255 of the padded weight, scale and offset
  arrays; the body loads the three blocks whole, computes (w − offset)·scale group by group (the 4096 columns are 32
  groups of 128) and stores the result, narrowed to bf16, over the whole output block. Nothing is carried between
  points. Stated here: what the output's staging buffer holds after the body as a function of the three input blocks,
  the body's triple, the proof data of the pipeline and its body obligation at every point.
-/
import proofs.«151683_j63213328662919_1_alg».proof.Proof.Gen.KernelIdeal.Launch
import proofs.«151683_j63213328662919_1_alg».proof.Proof.Gen.KernelIdeal.Skeleton
import proofs.«151683_j63213328662919_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`: rows 256·t … of its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is `V`'s
    and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev rWt : Rect S256x4096 := Rect.unit (s := S256x4096) ![0, 0] S256x4096.size inb_S256x4096_S256x4096_0_0
abbrev rGr : Rect S256x32 := Rect.unit (s := S256x32) ![0, 0] S256x32.size inb_S256x32_S256x32_0_0

/-- The output block after the body, from the weight block `x0`, the scale block `x1` and the offset block `x2`:
    its one store, which covers it. -/
def out0_3 (x0 : Vec F S256x4096 .f32) (x1 : Vec F S256x32 .f32) (x2 : Vec F S256x32 .f32) : Vec F S256x4096 .bf16 :=
  View.canon [⟨rWt, k0_pay1 (View.ld x0 rWt) (View.ld x1 rGr) (View.ld x2 rGr)⟩]

theorem cover0_3 (p0 : Vec F S256x4096 .bf16) (y : S256x4096.Idx) :
    ∃ pc ∈ ([⟨rWt, p0⟩] : List (View.Piece (Elt F) S256x4096 .bf16)), y ∈ pc.1.set :=
  View.cover_of_tiled [⟨rWt, p0⟩] S256x4096.size (by rfl) y

/-! ## The body's triple -/

set_option maxHeartbeats 1000000 in
/-- On whole staging memrefs, the inputs' at contents `x0`, `x1`, `x2` and the output's at anything, the body runs to
    the continuation holding the inputs' as they were and the output's at `out0_3 x0 x1 x2`. -/
theorem sound_kernel0 (c : Dev nD) (E : Set ℕ) (i : grid0.Coords)
    (arg1 : Memref sig .tc .vmem S256x4096 .f32) (harg1 : arg1.IsWhole) (arg2 : Memref sig .tc .vmem S256x32 .f32) (harg2 : arg2.IsWhole)
    (arg3 : Memref sig .tc .vmem S256x32 .f32) (harg3 : arg3.IsWhole) (arg4 : Memref sig .tc .vmem S256x4096 .bf16) (harg4 : arg4.IsWhole)
    (x0 : Vec F S256x4096 .f32) (x1 : Vec F S256x32 .f32) (x2 : Vec F S256x32 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__dequant_weight_kernel i arg1 harg1 arg2 harg2 arg3 harg3 arg4 harg4) K := by
  simp only [cc0__dequant_weight_kernel_eq_skeleton]; unfold cc0__dequant_weight_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The arrays as the region finds them; after the body at point `t` each input's buffer at its block and the output's
    at `out0_3` of the three input blocks; the scoped buffers and the generator register untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KernelIdeal.MatmulCases.lean ====
/-
  Region 1 of @main (the tiled matrix product), first half: what its three control cases share, and the body run once
  per case. The grid is 4 × 11 × 4 (row tile i, column tile j, reduction step k; point t = (i·11 + j)·4 + k). The body
  resets the accumulator scratch when k = 0, adds the product of the scaled activation tile and the weight tile to it at
  every point, and copies it into the output block when k = 3. So a point is in one of three cases:
    A (k = 0): reset, accumulate; the output block untouched;
    B (k = 1, 2): accumulate over what the point before left; the output block untouched;
    C (k = 3): accumulate over what the point before left, then store the accumulator into the output block.
  Each case's run finds the pieces the scratch and the output block end with.
-/
import proofs.«151683_j63213328662919_1_alg».proof.Proof.Gen.KernelIdeal.Launch
import proofs.«151683_j63213328662919_1_alg».proof.Proof.Gen.KernelIdeal.Skeleton
import proofs.«151683_j63213328662919_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two branch conditions, in closed form over the grid -/

/-- "k = 0": the condition of the reset. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- "k = 3": the condition of the copy into the output block. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where k ≠ 3 the body stores nothing into the output block, and the pipeline does not write it back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The memrefs the body is called with -/

abbrev VO1_3 : View sig .tc .vmem S2048x1024 .f32 := (Memref.whole cc1_stg3_0 : Memref sig .tc .vmem S2048x1024 .f32).view
abbrev ms1_0 (t : Fin cfg1.N) : Memref sig .tc .vmem S2048x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x1024 .f32 := win1_3.stage (cfg1.slots t 3)
abbrev hs1_3 (t : Fin cfg1.N) : (ms1_3 t).IsWhole := hstage1_3 ((cfg1.slots t 3).cast nbuf1_3)
/-- The accumulator: a whole scoped buffer of the kernel's own, passed beside the windows. -/
abbrev scM1 : Memref sig .tc .vmem S2048x1024 .f32 := Memref.whole cc1_scratch0
abbrev VS1 : View sig .tc .vmem S2048x1024 .f32 := scM1.view

/-- The scoped buffers that are neither a staging buffer of this call nor the accumulator (the other call's staging
    buffers), each at some contents: carried through the region unopened. -/
abbrev restBut1 (c : Dev nD) : sProp 𝕄 :=
  Pipeline.scopedRestBut (Ix := Unit) (Name := ℕ) (U := UR sig nD τ) (Lvl := ℕ) (Val := Elt F) spec1 c [cc1_scratch0]

/-- What the launch hands the region of the scoped buffers, with the accumulator split off as a memref owned at some
    contents. -/
theorem PhiA1_eq (c : Dev nD) :
    (Pipeline.ΦA spec1 c : sProp 𝕄)
      = iprop(iprop((∃ d, owns (c : Thread nD τ) scM1 fullShare d) ∗ restBut1 c) ∗ (∃ r, prngReg c r)) := by
  unfold Pipeline.ΦA
  rw [Pipeline.scopedRest_split_of_list spec1 c [cc1_scratch0] (by decide) (by decide)]
  simp only [scM1, owns_whole, bigSepL]
  try rfl

/-! ## The body, run once per case -/

set_option maxHeartbeats 4000000 in
/-- CASE A (k = 0). The accumulator at anything; the output block at contents `xi3`, handed back untouched. -/
noncomputable def kernelRun1_A (c : Dev nD) (i : grid1.Coords) (arg3 : Memref sig .tc .vmem S2048x1024 .f32) (harg3 : arg3.IsWhole) (arg4 : Memref sig .tc .vmem S2048x1 .f32) (harg4 : arg4.IsWhole) (arg5 : Memref sig .tc .vmem S1024x1024 .bf16) (harg5 : arg5.IsWhole) (arg6 : Memref sig .tc .vmem S2048x1024 .f32) (harg6 : arg6.IsWhole) (arg7 : Memref sig .tc .vmem S2048x1024 .f32) (harg7 : arg7.IsWhole) (hc0 : cond1_0 i) (hc1 : ¬cond1_1 i)
    (x0 : Vec F S2048x1024 .f32) (x1 : Vec F S2048x1 .f32) (x2 : Vec F S1024x1024 .bf16) :
    Σ' (L3 : List (View.Piece (Elt F) S2048x1024 .f32)), { LS0 : List (View.Piece (Elt F) S2048x1024 .f32) //
      ∀ (xi3 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 4000000 in
/-- CASE B (k = 1, 2). The accumulator at the contents `xs0` the point before left; the output block at contents
    `xi3`, handed back untouched. -/
noncomputable def kernelRun1_B (c : Dev nD) (i : grid1.Coords) (arg3 : Memref sig .tc .vmem S2048x1024 .f32) (harg3 : arg3.IsWhole) (arg4 : Memref sig .tc .vmem S2048x1 .f32) (harg4 : arg4.IsWhole) (arg5 : Memref sig .tc .vmem S1024x1024 .bf16) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : ¬cond1_1 i)
    (x0 : Vec F S2048x1024 .f32) (x1 : Vec F S2048x1 .f32) (x2 : Vec F S1024x1024 .bf16) (xs0 : Vec F S2048x1024 .f32) :
    Σ' (L3 : List (View.Piece (Elt F) S2048x1024 .f32)), { LS0 : List (View.Piece (Elt F) S2048x1024 .f32) //
      ∀ (xi3 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 4000000 in
/-- CASE C (k = 3). The accumulator at the contents `xs0` the point before left; the output block at anything, left
    with the pieces `L3` written. -/
noncomputable def kernelRun1_C (c : Dev nD) (i : grid1.Coords) (arg3 : Memref sig .tc .vmem S2048x1024 .f32) (harg3 : arg3.IsWhole) (arg4 : Memref sig .tc .vmem S2048x1 .f32) (harg4 : arg4.IsWhole) (arg5 : Memref sig .tc .vmem S1024x1024 .bf16) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : cond1_1 i)
    (x0 : Vec F S2048x1024 .f32) (x1 : Vec F S2048x1 .f32) (x2 : Vec F S1024x1024 .bf16) (xs0 : Vec F S2048x1024 .f32) :
    Σ' (L3 : List (View.Piece (Elt F) S2048x1024 .f32)), { LS0 : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Hand

end
-- ==== Proof.KernelIdeal.Matmul.lean ====
/-
  Region 1 of @main (the tiled matrix product), second half, at a parameter `V` (the buffers' contents when the region
  is entered): what each case leaves in the accumulator and in the output block, read back from the pieces its run found;
  what they hold after each point, by recursion on the point (case A starts afresh, cases B and C go on from what the
  point before left in the accumulator); the region's invariant, which carries the accumulator at those contents from
  one point to the next; the proof data; the body obligation at every point.
-/
import proofs.«151683_j63213328662919_1_alg».proof.Proof.KernelIdeal.MatmulCases

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

/-- Case A stores nothing into the output block: a placeholder nothing consults. -/
def out1_A_3 (c : Dev nD) (i : grid1.Coords) (arg3 : Memref sig .tc .vmem S2048x1024 .f32) (harg3 : arg3.IsWhole) (arg4 : Memref sig .tc .vmem S2048x1 .f32) (harg4 : arg4.IsWhole) (arg5 : Memref sig .tc .vmem S1024x1024 .bf16) (harg5 : arg5.IsWhole) (arg6 : Memref sig .tc .vmem S2048x1024 .f32) (harg6 : arg6.IsWhole) (arg7 : Memref sig .tc .vmem S2048x1024 .f32) (harg7 : arg7.IsWhole) (hc0 : cond1_0 i) (hc1 : ¬cond1_1 i) (x0 : Vec F S2048x1024 .f32) (x1 : Vec F S2048x1 .f32) (x2 : Vec F S1024x1024 .bf16) : Vec F S2048x1024 .f32 :=
  VO1_3.read (Elt F) (VO1_3.writes (Elt F) VO1_3.junk (kernelRun1_A c i arg3 harg3 arg4 harg4 arg5 harg5 arg6 harg6 arg7 harg7 hc0 hc1 x0 x1 x2).1)
theorem scover1_A (c : Dev nD) (i : grid1.Coords) (arg3 : Memref sig .tc .vmem S2048x1024 .f32) (harg3 : arg3.IsWhole) (arg4 : Memref sig .tc .vmem S2048x1 .f32) (harg4 : arg4.IsWhole) (arg5 : Memref sig .tc .vmem S1024x1024 .bf16) (harg5 : arg5.IsWhole) (arg6 : Memref sig .tc .vmem S2048x1024 .f32) (harg6 : arg6.IsWhole) (arg7 : Memref sig .tc .vmem S2048x1024 .f32) (harg7 : arg7.IsWhole) (hc0 : cond1_0 i) (hc1 : ¬cond1_1 i) (x0 : Vec F S2048x1024 .f32) (x1 : Vec F S2048x1 .f32) (x2 : Vec F S1024x1024 .bf16) (y : S2048x1024.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S2048x1024.size (by sl_kernel_rfl) y
/-- What case A leaves in the accumulator. -/
def sout1_A (c : Dev nD) (i : grid1.Coords) (arg3 : Memref sig .tc .vmem S2048x1024 .f32) (harg3 : arg3.IsWhole) (arg4 : Memref sig .tc .vmem S2048x1 .f32) (harg4 : arg4.IsWhole) (arg5 : Memref sig .tc .vmem S1024x1024 .bf16) (harg5 : arg5.IsWhole) (arg6 : Memref sig .tc .vmem S2048x1024 .f32) (harg6 : arg6.IsWhole) (arg7 : Memref sig .tc .vmem S2048x1024 .f32) (harg7 : arg7.IsWhole) (hc0 : cond1_0 i) (hc1 : ¬cond1_1 i) (x0 : Vec F S2048x1024 .f32) (x1 : Vec F S2048x1 .f32) (x2 : Vec F S1024x1024 .bf16) : Vec F S2048x1024 .f32 :=
  VS1.read (Elt F) (VS1.writes (Elt F) VS1.junk (kernelRun1_A c i arg3 harg3 arg4 harg4 arg5 harg5 arg6 harg6 arg7 harg7 hc0 hc1 x0 x1 x2).2.1)

/-- Case B stores nothing into the output block: a placeholder nothing consults. -/
def out1_B_3 (c : Dev nD) (i : grid1.Coords) (arg3 : Memref sig .tc .vmem S2048x1024 .f32) (harg3 : arg3.IsWhole) (arg4 : Memref sig .tc .vmem S2048x1 .f32) (harg4 : arg4.IsWhole) (arg5 : Memref sig .tc .vmem S1024x1024 .bf16) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : ¬cond1_1 i) (x0 : Vec F S2048x1024 .f32) (x1 : Vec F S2048x1 .f32) (x2 : Vec F S1024x1024 .bf16) (xs0 : Vec F S2048x1024 .f32) : Vec F S2048x1024 .f32 :=
  VO1_3.read (Elt F) (VO1_3.writes (Elt F) VO1_3.junk (kernelRun1_B c i arg3 harg3 arg4 harg4 arg5 harg5 arg6 harg6 arg7 harg7 hc0 hc1 x0 x1 x2 xs0).1)
theorem scover1_B (c : Dev nD) (i : grid1.Coords) (arg3 : Memref sig .tc .vmem S2048x1024 .f32) (harg3 : arg3.IsWhole) (arg4 : Memref sig .tc .vmem S2048x1 .f32) (harg4 : arg4.IsWhole) (arg5 : Memref sig .tc .vmem S1024x1024 .bf16) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : ¬cond1_1 i) (x0 : Vec F S2048x1024 .f32) (x1 : Vec F S2048x1 .f32) (x2 : Vec F S1024x1024 .bf16) (xs0 : Vec F S2048x1024 .f32) (y : S2048x1024.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S2048x1024.size (by sl_kernel_rfl) y
/-- What case B leaves in the accumulator. -/
def sout1_B (c : Dev nD) (i : grid1.Coords) (arg3 : Memref sig .tc .vmem S2048x1024 .f32) (harg3 : arg3.IsWhole) (arg4 : Memref sig .tc .vmem S2048x1 .f32) (harg4 : arg4.IsWhole) (arg5 : Memref sig .tc .vmem S1024x1024 .bf16) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : ¬cond1_1 i) (x0 : Vec F S2048x1024 .f32) (x1 : Vec F S2048x1 .f32) (x2 : Vec F S1024x1024 .bf16) (xs0 : Vec F S2048x1024 .f32) : Vec F S2048x1024 .f32 :=
  VS1.read (Elt F) (VS1.writes (Elt F) VS1.junk (kernelRun1_B c i arg3 harg3 arg4 harg4 arg5 harg5 arg6 harg6 arg7 harg7 hc0 hc1 x0 x1 x2 xs0).2.1)

theorem cover1_C_3 (c : Dev nD) (i : grid1.Coords) (arg3 : Memref sig .tc .vmem S2048x1024 .f32) (harg3 : arg3.IsWhole) (arg4 : Memref sig .tc .vmem S2048x1 .f32) (harg4 : arg4.IsWhole) (arg5 : Memref sig .tc .vmem S1024x1024 .bf16) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : cond1_1 i) (x0 : Vec F S2048x1024 .f32) (x1 : Vec F S2048x1 .f32) (x2 : Vec F S1024x1024 .bf16) (xs0 : Vec F S2048x1024 .f32) (y : S2048x1024.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S2048x1024.size (by sl_kernel_rfl) y
/-- What case C leaves in the output block. -/
def out1_C_3 (c : Dev nD) (i : grid1.Coords) (arg3 : Memref sig .tc .vmem S2048x1024 .f32) (harg3 : arg3.IsWhole) (arg4 : Memref sig .tc .vmem S2048x1 .f32) (harg4 : arg4.IsWhole) (arg5 : Memref sig .tc .vmem S1024x1024 .bf16) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : cond1_1 i) (x0 : Vec F S2048x1024 .f32) (x1 : Vec F S2048x1 .f32) (x2 : Vec F S1024x1024 .bf16) (xs0 : Vec F S2048x1024 .f32) : Vec F S2048x1024 .f32 :=
  VO1_3.read (Elt F) (VO1_3.writes (Elt F) VO1_3.junk (kernelRun1_C c i arg3 harg3 arg4 harg4 arg5 harg5 arg6 harg6 arg7 harg7 hc0 hc1 x0 x1 x2 xs0).1)
theorem scover1_C (c : Dev nD) (i : grid1.Coords) (arg3 : Memref sig .tc .vmem S2048x1024 .f32) (harg3 : arg3.IsWhole) (arg4 : Memref sig .tc .vmem S2048x1 .f32) (harg4 : arg4.IsWhole) (arg5 : Memref sig .tc .vmem S1024x1024 .bf16) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : cond1_1 i) (x0 : Vec F S2048x1024 .f32) (x1 : Vec F S2048x1 .f32) (x2 : Vec F S1024x1024 .bf16) (xs0 : Vec F S2048x1024 .f32) (y : S2048x1024.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S2048x1024.size (by sl_kernel_rfl) y
/-- What case C leaves in the accumulator. -/
def sout1_C (c : Dev nD) (i : grid1.Coords) (arg3 : Memref sig .tc .vmem S2048x1024 .f32) (harg3 : arg3.IsWhole) (arg4 : Memref sig .tc .vmem S2048x1 .f32) (harg4 : arg4.IsWhole) (arg5 : Memref sig .tc .vmem S1024x1024 .bf16) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : cond1_1 i) (x0 : Vec F S2048x1024 .f32) (x1 : Vec F S2048x1 .f32) (x2 : Vec F S1024x1024 .bf16) (xs0 : Vec F S2048x1024 .f32) : Vec F S2048x1024 .f32 :=
  VS1.read (Elt F) (VS1.writes (Elt F) VS1.junk (kernelRun1_C c i arg3 harg3 arg4 harg4 arg5 harg5 arg6 harg6 arg7 harg7 hc0 hc1 x0 x1 x2 xs0).2.1)

/-! ## What the output block and the accumulator hold after each point -/

/-- After the body at position `n`: (the output block, the accumulator). The case is the one `n mod 4` selects; cases B
    and C run over what position `n − 1` left in the accumulator. -/
def outsAt1 (c : Dev nD) : (n : ℕ) → n < cfg1.N → Vec F S2048x1024 .f32 × Vec F S2048x1024 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩),
              sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      if h1 : (n + 1) % 4 = 3 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩),
         sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2,
         sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2,
         sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (out1_A_3 c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t),
      sout1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B_3 c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2,
      sout1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant: the accumulator carried from point to point -/

/-- Before position `n`: before the first point what the launch hands over (the accumulator at anything); afterwards the
    accumulator at what the point before left, the other scoped buffers unopened, the generator register at some state. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ restBut1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare ((outsAt1 V c n hn).2) ∗ restBut1 c) ∗ (∃ r, prngReg c r)) := rfl

theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ restBut1 c) ∗ (∃ r, prngReg c r)) := by
  cases n with
  | zero => exact absurd rfl hz
  | succ n => rfl

/-! ## The pipeline's proof data -/

/-- The arrays as the region finds them; after the body at point `t` each input's buffer at its block and the output's
    at `outsAt1`'s first component; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point: the inputs' memrefs hold their blocks; `t mod 4` says which case the point is in; the
    invariant hands the body the accumulator at what the point before left (at anything at the very first point) and
    takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 176 := lt_of_lt_of_eq t.isLt (show cfg1.N = 176 from N_1)
  by_cases h0 : t.val % 4 = 0
  · by_cases h1 : t.val % 4 = 3
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_A V c t h0 h1]
      unfold sout1_A; (try dsimp only)
      by_cases hz : t.val = 0
      · rw [PhiS1_castSucc V c t, PhiS1_zero V c _ _ hz, PhiA1_eq]
        iintro ⟨⟨⟨HS0, Hrest⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_A c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HS0, Hrest⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_A c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
  · have hz : t.val ≠ 0 := fun hz => h0 (by rw [hz])
    by_cases h1 : t.val % 4 = 3
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_3 sout1_C; (try dsimp only)
      · rw [PhiS1_castSucc V c t, PhiS1_pos V c _ _ hz]
        iintro ⟨⟨⟨HS0, Hrest⟩, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_C c _ _ _ _ _ _ _ _ _ _ _ _ _ _ _ _ _)
            iexact Hrest
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B; (try dsimp only)
      · rw [PhiS1_castSucc V c t, PhiS1_pos V c _ _ hz]
        iintro ⟨⟨⟨HS0, Hrest⟩, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_B c _ _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives it back: the accumulator's contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 176 := N_1; omega
  rw [show (dat1 V c).Φ (Fin.last cfg1.N) = PhiS1 V c (Fin.last cfg1.N).val (Nat.le_of_lt_succ (Fin.last cfg1.N).isLt) from rfl,
    PhiS1_pos V c _ _ ht, PhiA1_eq]
  iintro ⟨⟨HS0, Hrest⟩, Hg⟩
  isplitl [HS0 Hrest]
  · isplitl [HS0]
    · iexists _; iexact HS0
    iexact Hrest
  iexact Hg

end Cert.KernelIdeal.Hand

end
-- ==== Proof.KernelIdeal.Whole.lean ====
/-
  The run of @main as a whole: host stretches (three zero-paddings of the weight, scale and offset arrays from 11008 to
  11264 rows; two reshapes of the activations and their per-row scales from [4, 2048, ·] to [8192, ·]; a slice back to
  11008 columns and a reshape to [4, 2048, 11008]) around the two kernel regions. The contents of the TensorCore's
  unscoped buffers are named at each of the eleven boundaries: a host stretch applies its operations; a region leaves its
  output array at what its write-backs fold to and everything else as it was. Over these names each region is a segment
  whose entry and exit states are the neighbouring boundaries', and the launch theorem for a list of segments gives: every
  weakly fair execution terminates, nothing faults, and every unscoped buffer ends at the last boundary's contents.
-/
import proofs.«151683_j63213328662919_1_alg».proof.Proof.KernelIdeal.Dequant
import proofs.«151683_j63213328662919_1_alg».proof.Proof.KernelIdeal.Matmul
import proofs.«151683_j63213328662919_1_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- At launch. -/
abbrev B0 : Dev nD → Valuation τ sig (Elt F) := fun c b => m (c, b)
abbrev B1 : Dev nD → Valuation τ sig (Elt F) := fun c => StableHlo.after hostOps0 (B0 m c)
abbrev B2 : Dev nD → Valuation τ sig (Elt F) := fun c => StableHlo.after hostOps0_1 (B1 m c)
abbrev B3 : Dev nD → Valuation τ sig (Elt F) := fun c => StableHlo.after hostOps0_2 (B2 m c)
abbrev B4 : Dev nD → Valuation τ sig (Elt F) := fun c => StableHlo.after hostOps0_3 (B3 m c)
abbrev B5 : Dev nD → Valuation τ sig (Elt F) := fun c => StableHlo.after hostOps0_4 (B4 m c)
/-- After the three paddings: what region 0 is entered from. -/
abbrev B6 : Dev nD → Valuation τ sig (Elt F) := fun c => StableHlo.after hostOps0_5 (B5 m c)
/-- The same read at the TensorCore's references (what region 0's proof data take). -/
abbrev E0 : (c : Dev nD) → (b : Ref sig .tc) → Buf (Elt F) ((c : Thread nD τ).loc b) := fun c b => B6 m c b
/-- At region 0's exit: its arrays at what the pipeline leaves, every other buffer as entered. -/
def B7 (c : Dev nD) : Valuation τ sig (Elt F) :=
  Pipeline.withArrays spec0 c (B6 m c) fun w => (dat0 (E0 m) c).arrAt w cfg0.N
theorem B7_arr (c : Dev nD) (w : Fin cfg0.W) :
    B7 m c (Proc.devRef .tc (Pipeline.arrRef spec0 w)) = (dat0 (E0 m) c).arrAt w cfg0.N := by
  unfold B7; exact Pipeline.withArrays_arr spec0 launch0.win.arr_inj c _ _ w
theorem B7_of_ne (c : Dev nD) (b : Ref sig .tc) (hb : ∀ w, Pipeline.arrRef spec0 w ≠ b) :
    B7 m c (Proc.devRef .tc b) = B6 m c (Proc.devRef .tc b) := by
  unfold B7; exact Pipeline.withArrays_of_ne spec0 c _ _ b hb
abbrev X0 : (c : Dev nD) → (b : Ref sig .tc) → Buf (Elt F) ((c : Thread nD τ).loc b) := fun c b => B7 m c b
theorem hF0 (c : Dev nD) (w : Fin cfg0.W) : (dat0 (E0 m) c).arrAt w cfg0.N = X0 m c (Pipeline.arrRef spec0 w) :=
  (B7_arr m c w).symm
theorem hrest0 (c : Dev nD) : ∀ b, b ∉ Finset.univ.image (Pipeline.arrRef spec0) → X0 m c b = E0 m c b :=
  fun b hb => B7_of_ne m c b fun w e => hb (Finset.mem_image.mpr ⟨w, Finset.mem_univ _, e⟩)

/-- After the two reshapes: what region 1 is entered from. -/
abbrev B8 : Dev nD → Valuation τ sig (Elt F) := fun c => StableHlo.after hostOps1 (B7 m c)
abbrev E1 : (c : Dev nD) → (b : Ref sig .tc) → Buf (Elt F) ((c : Thread nD τ).loc b) := fun c b => B8 m c b
/-- At region 1's exit. -/
def B9 (c : Dev nD) : Valuation τ sig (Elt F) :=
  Pipeline.withArrays spec1 c (B8 m c) fun w => (dat1 (E1 m) c).arrAt w cfg1.N
theorem B9_arr (c : Dev nD) (w : Fin cfg1.W) :
    B9 m c (Proc.devRef .tc (Pipeline.arrRef spec1 w)) = (dat1 (E1 m) c).arrAt w cfg1.N := by
  unfold B9; exact Pipeline.withArrays_arr spec1 launch1.win.arr_inj c _ _ w
theorem B9_of_ne (c : Dev nD) (b : Ref sig .tc) (hb : ∀ w, Pipeline.arrRef spec1 w ≠ b) :
    B9 m c (Proc.devRef .tc b) = B8 m c (Proc.devRef .tc b) := by
  unfold B9; exact Pipeline.withArrays_of_ne spec1 c _ _ b hb
abbrev X1 : (c : Dev nD) → (b : Ref sig .tc) → Buf (Elt F) ((c : Thread nD τ).loc b) := fun c b => B9 m c b
theorem hF1 (c : Dev nD) (w : Fin cfg1.W) : (dat1 (E1 m) c).arrAt w cfg1.N = X1 m c (Pipeline.arrRef spec1 w) :=
  (B9_arr m c w).symm
theorem hrest1 (c : Dev nD) : ∀ b, b ∉ Finset.univ.image (Pipeline.arrRef spec1) → X1 m c b = E1 m c b :=
  fun b hb => B9_of_ne m c b fun w e => hb (Finset.mem_image.mpr ⟨w, Finset.mem_univ _, e⟩)

/-- After the slice and the last reshape: the end. -/
abbrev B10 : Dev nD → Valuation τ sig (Elt F) := fun c => StableHlo.after hostOps2 (B9 m c)

/-! ## A buffer nothing writes ends as launched -/

/-- A buffer that no host stretch writes and that is no array of either region holds its launch contents at the end. -/
theorem B10_of (c : Dev nD) (r : Ref sig .tc)
    (h0 : r ∉ hostOps0_W) (h1 : r ∉ hostOps0_1_W) (h2 : r ∉ hostOps0_2_W) (h3 : r ∉ hostOps0_3_W) (h4 : r ∉ hostOps0_4_W)
    (h5 : r ∉ hostOps0_5_W) (h7 : r ∉ hostOps1_W) (h9 : r ∉ hostOps2_W)
    (ha0 : ∀ w, Pipeline.arrRef spec0 w ≠ r) (ha1 : ∀ w, Pipeline.arrRef spec1 w ≠ r) :
    B10 m c (Proc.devRef .tc r) = m ((c : Thread nD τ).loc r) :=
  calc B10 m c (Proc.devRef .tc r)
    _ = B9 m c (Proc.devRef .tc r) := StableHlo.after_of_writes_sub hostOps2 _ hostOps2_writes h9
    _ = B8 m c (Proc.devRef .tc r) := B9_of_ne m c r ha1
    _ = B7 m c (Proc.devRef .tc r) := StableHlo.after_of_writes_sub hostOps1 _ hostOps1_writes h7
    _ = B6 m c (Proc.devRef .tc r) := B7_of_ne m c r ha0
    _ = B5 m c (Proc.devRef .tc r) := StableHlo.after_of_writes_sub hostOps0_5 _ hostOps0_5_writes h5
    _ = B4 m c (Proc.devRef .tc r) := StableHlo.after_of_writes_sub hostOps0_4 _ hostOps0_4_writes h4
    _ = B3 m c (Proc.devRef .tc r) := StableHlo.after_of_writes_sub hostOps0_3 _ hostOps0_3_writes h3
    _ = B2 m c (Proc.devRef .tc r) := StableHlo.after_of_writes_sub hostOps0_2 _ hostOps0_2_writes h2
    _ = B1 m c (Proc.devRef .tc r) := StableHlo.after_of_writes_sub hostOps0_1 _ hostOps0_1_writes h1
    _ = B0 m c (Proc.devRef .tc r) := StableHlo.after_of_writes_sub hostOps0 _ hostOps0_writes h0
    _ = m ((c : Thread nD τ).loc r) := rfl

theorem B10_main_arg0 (c : Dev nD) : B10 m c (Proc.devRef .tc main_arg0) = m ((c : Thread nD τ).loc main_arg0) :=
  B10_of m c main_arg0 (by decide) (by decide) (by decide) (by decide) (by decide) (by decide) (by decide) (by decide) (by decide) (by decide)
theorem B10_main_arg1 (c : Dev nD) : B10 m c (Proc.devRef .tc main_arg1) = m ((c : Thread nD τ).loc main_arg1) :=
  B10_of m c main_arg1 (by decide) (by decide) (by decide) (by decide) (by decide) (by decide) (by decide) (by decide) (by decide) (by decide)
theorem B10_main_arg2 (c : Dev nD) : B10 m c (Proc.devRef .tc main_arg2) = m ((c : Thread nD τ).loc main_arg2) :=
  B10_of m c main_arg2 (by decide) (by decide) (by decide) (by decide) (by decide) (by decide) (by decide) (by decide) (by decide) (by decide)
theorem B10_main_arg3 (c : Dev nD) : B10 m c (Proc.devRef .tc main_arg3) = m ((c : Thread nD τ).loc main_arg3) :=
  B10_of m c main_arg3 (by decide) (by decide) (by decide) (by decide) (by decide) (by decide) (by decide) (by decide) (by decide) (by decide)
theorem B10_main_arg4 (c : Dev nD) : B10 m c (Proc.devRef .tc main_arg4) = m ((c : Thread nD τ).loc main_arg4) :=
  B10_of m c main_arg4 (by decide) (by decide) (by decide) (by decide) (by decide) (by decide) (by decide) (by decide) (by decide) (by decide)

/-! ## The proof data family and the thread state -/

/-- Each pipeline's proof data at its region's entry contents: a literal match on the pipeline's index. -/
def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev ride (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W ride

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Region 0 over the thread state: entered from every unscoped buffer at `B6`, left at `B7`. Its arrays are
    split out of the unscoped buffers and put back at the exit contents; the generator register goes into the region's
    invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (B6 m c) ∗ ride c)
  post c := iprop(StableHlo.held (c : Thread nD τ) (Pipeline.ucRefs τ sig) (B7 m c) ∗ ride c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (X0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `B8`, left at `B9`. Its arrays are
    split out of the unscoped buffers and put back at the exit contents; the generator register goes into the region's
    invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (B8 m c) ∗ ride c)
  post c := iprop(StableHlo.held (c : Thread nD τ) (Pipeline.ucRefs τ sig) (B9 m c) ∗ ride c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (E1 m) c)
    unfold Pipeline.ΦA
    iintro ⟨Hp, -, Hr⟩
    isplitl [Hr]; · iexact Hr
    iexact Hp
  hout c := by
    rw [Pipeline.ownSems0_none]
    refine .trans (hout1 (E1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (X1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (B0 m)),
    .host (hseg hostOps0_1 hostOps0_1_sub hostOps0_1_fresh (B1 m)),
    .host (hseg hostOps0_2 hostOps0_2_sub hostOps0_2_fresh (B2 m)),
    .host (hseg hostOps0_3 hostOps0_3_sub hostOps0_3_fresh (B3 m)),
    .host (hseg hostOps0_4 hostOps0_4_sub hostOps0_4_fresh (B4 m)),
    .host (hseg hostOps0_5 hostOps0_5_sub hostOps0_5_fresh (B5 m)),
    .region (reg0 m),
    .host (hseg hostOps1 hostOps1_sub hostOps1_fresh (B7 m)),
    .region (reg1 m),
    .host (hseg hostOps2 hostOps2_sub hostOps2_fresh (B9 m)) ]

theorem main_run (c : Dev nD) : main (F := F) c = Pipeline.Seg.run (segs m) := by
  rw [main_chain c, Pipeline.Seg.run_eq_chain]
  rfl

/-- The last thread state without the `owes`. -/
abbrev Tlast (c : Dev nD) : sProp 𝕄 := iprop(StableHlo.held (c : Thread nD τ) (Pipeline.ucRefs τ sig) (B10 m c) ∗ ∃ r, prngReg c r)

set_option backward.isDefEq.respectTransparency.types false in
/-- THE RUN. From any memory with zero counters, every weakly fair execution of @main terminates, nothing faulting, and
    every unscoped buffer of every core ends at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = B10 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ ride c)) (Tₙ := Tlast m)
    (hch := ⟨fun _ => .rfl, fun _ => .rfl, fun _ => .rfl, fun _ => .rfl, fun _ => .rfl, fun _ => .rfl, fun _ => .rfl, fun _ => .rfl,
      fun _ => .rfl, fun _ => .rfl, fun c => by
        show iprop(StableHlo.held (c : Thread nD τ) (Pipeline.ucRefs τ sig) (B10 m c) ∗ ride c)
          ⊢ iprop(Tlast m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B10 m c b)
    (hfin := fun c s' => by
      iintro ⟨⟨Hh, -⟩, HSI⟩
      unfold StableHlo.held
      imodintro
      iapply (pointsTo_read_all (Pipeline.ucRefs τ sig) (fun b => (((c : Thread nD τ)).1, b)) (B10 m c) s')
      isplitl [Hh] <;> iassumption)
    (hQ := fun s h => h)

/-- THE FRAME: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (B10_main_arg0 m c),
     (h c _ (mem_uc main_arg1 (by decide))).trans (B10_main_arg1 m c),
     (h c _ (mem_uc main_arg2 (by decide))).trans (B10_main_arg2 m c),
     (h c _ (mem_uc main_arg3 (by decide))).trans (B10_main_arg3 m c),
     (h c _ (mem_uc main_arg4 (by decide))).trans (B10_main_arg4 m c)⟩) (run_all m ρ)

end Cert.KernelIdeal.Hand

end
-- ==== Proof.KernelIdeal.HostValue.lean ====
/-
  What the host stretches of @main put in the buffers the two regions read, and what they make of the product array: the
  weight, scale and offset arrays padded with 256 rows of the converted integer zero; the activations and their scales
  flattened to 8192 rows; the dequantised weights passed from region 0 to region 1 untouched; and the result — the
  product array cut to its first 11008 columns and given back its two leading axes.
-/
import proofs.«151683_j63213328662919_1_alg».proof.Proof.KernelIdeal.Whole
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- The padding value: the integer constant 0 converted to f32. -/
abbrev zpad : (⟨S_, .f32⟩ : BufTy).Contents (Elt F) := sitofp .f32 (constantI S_ 32 0#32)

/-- Region 0 finds the weights padded to 11264 rows, -/
theorem E0_v0 (c : Dev nD) : E0 m c main_v0
    = pad S11264x4096 ![0, 0] ![256, 0] ![0, 0] (m ((c : Thread nD τ).loc main_arg2)) zpad pads_S11008x4096_S11264x4096_02560_000 h_S_ := by
  dsimp only [E0, E1, B10, B8, B6, B5, B4, B3, B2, B1, B0, hostOps0, hostOps0_1, hostOps0_2, hostOps0_3, hostOps0_4, hostOps0_5, hostOps1, hostOps2]
  after_results
  rfl
/-- the scales padded likewise, -/
theorem E0_v1 (c : Dev nD) : E0 m c main_v1
    = pad S11264x32 ![0, 0] ![256, 0] ![0, 0] (m ((c : Thread nD τ).loc main_arg3)) zpad pads_S11008x32_S11264x32_02560_000 h_S_ := by
  dsimp only [E0, E1, B10, B8, B6, B5, B4, B3, B2, B1, B0, hostOps0, hostOps0_1, hostOps0_2, hostOps0_3, hostOps0_4, hostOps0_5, hostOps1, hostOps2]
  after_results
  rfl
/-- and the offsets. -/
theorem E0_v2 (c : Dev nD) : E0 m c main_v2
    = pad S11264x32 ![0, 0] ![256, 0] ![0, 0] (m ((c : Thread nD τ).loc main_arg4)) zpad pads_S11008x32_S11264x32_02560_000 h_S_ := by
  dsimp only [E0, E1, B10, B8, B6, B5, B4, B3, B2, B1, B0, hostOps0, hostOps0_1, hostOps0_2, hostOps0_3, hostOps0_4, hostOps0_5, hostOps1, hostOps2]
  after_results
  rfl

/-- What region 0 leaves in its output array reaches region 1 untouched. -/
theorem E1_v3 (c : Dev nD) : E1 m c main_v3 = (dat0 (E0 m) c).arrAt 3 cfg0.N := by
  show StableHlo.after hostOps1 (B7 m c) (Proc.devRef .tc main_v3) = _
  rw [StableHlo.after_of_writes_sub hostOps1 _ hostOps1_writes (by decide : main_v3 ∉ hostOps1_W)]
  exact B7_arr m c 3

/-- A buffer neither region writes, read where region 1 is entered, holds what the host stretches so far made of the
    launch contents. -/
theorem B7_keeps (c : Dev nD) (r : Ref sig .tc) (ha0 : ∀ w, Pipeline.arrRef spec0 w ≠ r) :
    B7 m c (Proc.devRef .tc r) = B6 m c (Proc.devRef .tc r) := B7_of_ne m c r ha0

/-- Region 1 finds the activations flattened to 8192 rows, -/
theorem E1_v4 (c : Dev nD) : E1 m c main_v4
    = shapeCast S8192x4096 (m ((c : Thread nD τ).loc main_arg0)) shapeCasts_S4x2048x4096_S8192x4096 := by
  show StableHlo.after hostOps1 (B7 m c) (Proc.devRef .tc main_v4) = _
  dsimp only [hostOps1]
  after_results
  rw [B7_keeps m c main_arg0 (by decide)]
  exact congrArg (fun x => shapeCast S8192x4096 x shapeCasts_S4x2048x4096_S8192x4096) (by
    dsimp only [E0, E1, B10, B8, B6, B5, B4, B3, B2, B1, B0, hostOps0, hostOps0_1, hostOps0_2, hostOps0_3, hostOps0_4, hostOps0_5, hostOps1, hostOps2]
    after_results
    try rfl)
/-- and their scales. -/
theorem E1_v5 (c : Dev nD) : E1 m c main_v5
    = shapeCast S8192x1 (m ((c : Thread nD τ).loc main_arg1)) shapeCasts_S4x2048x1_S8192x1 := by
  show StableHlo.after hostOps1 (B7 m c) (Proc.devRef .tc main_v5) = _
  dsimp only [hostOps1]
  after_results
  rw [B7_keeps m c main_arg1 (by decide)]
  exact congrArg (fun x => shapeCast S8192x1 x shapeCasts_S4x2048x1_S8192x1) (by
    dsimp only [E0, E1, B10, B8, B6, B5, B4, B3, B2, B1, B0, hostOps0, hostOps0_1, hostOps0_2, hostOps0_3, hostOps0_4, hostOps0_5, hostOps1, hostOps2]
    after_results
    try rfl)

/-- The result: the product array cut to 11008 columns, its rows split back into [4, 2048]. -/
theorem B10_v8 (c : Dev nD) : B10 m c (Proc.devRef .tc main_v8)
    = shapeCast S4x2048x11008 (extractStridedSlice S8192x11008 ![0, 0] ((dat1 (E1 m) c).arrAt 3 cfg1.N) slices_S8192x11264_S8192x11008_0_0)
        shapeCasts_S8192x11008_S4x2048x11008 := by
  show StableHlo.after hostOps2 (B9 m c) (Proc.devRef .tc main_v8) = _
  dsimp only [hostOps2]
  after_results
  rw [show B9 m c (Proc.devRef .tc main_v6) = (dat1 (E1 m) c).arrAt 3 cfg1.N from B9_arr m c 3]
  rfl

end Cert.KernelIdeal.Hand

end
-- ==== Proof.Spec.lean ====
/-
  What the two kernel regions compute, as whole-array functions over the extended reals, index by index.

  `deq w sc off` — the dequantised weights: entry (o, i) is (w[o, i] − off[o, i / 128]) · sc[o, i / 128]: the 4096 columns
  are 32 groups of 128, each with its own offset and scale per output row.

  `mmul x sx wd` — the product as the tiled kernel accumulates it: entry (r, o) is the accumulator's start 0, plus, one
  after the other, the four partial sums over the column ranges [0, 1024), [1024, 2048), [2048, 3072), [3072, 4096) of
  (x[r, i] · sx[r, 0]) · wd[o, i].
-/
import proofs.«151683_j63213328662919_1_alg».proof.KernelIdeal
import Idealize.ShloMosaic.PureOps.Ideal
import Idealize.ShloMosaic.Lib.ValueIdx

noncomputable section

namespace Cert.Spec

open Idealize.ShloMosaic Idealize.ShloMosaic.ValueIdx Cert.KernelIdeal
open scoped BigOperators

/-- The group of column `i`. -/
def grp (i : Fin 4096) : Fin 32 := ⟨i.val / 128, by have := i.isLt; omega⟩

/-- Column `kk` of the `kb`-th range of 1024 columns. -/
def col (kb : Fin 4) (kk : Fin 1024) : Fin 4096 := ⟨kb.val * 1024 + kk.val, by have := kb.isLt; have := kk.isLt; omega⟩

/-- One dequantised weight. -/
def deqAt (w : FVec Ideal S11264x4096 .f32) (sc off : FVec Ideal S11264x32 .f32) (o : Fin 11264) (i : Fin 4096) : EReal :=
  (w (ix2 o i) - off (ix2 o (grp i))) * sc (ix2 o (grp i))

/-- The dequantised weights. -/
def deq (w : FVec Ideal S11264x4096 .f32) (sc off : FVec Ideal S11264x32 .f32) : FVec Ideal S11264x4096 .bf16 :=
  fun j => deqAt w sc off (j 0) (j 1)

/-- One term of the product: the scaled activation times the weight. -/
def term (x : FVec Ideal S8192x4096 .f32) (sx : FVec Ideal S8192x1 .f32) (wd : FVec Ideal S11264x4096 .bf16)
    (r : Fin 8192) (o : Fin 11264) (i : Fin 4096) : EReal :=
  (x (ix2 r i) * sx (ix2 r (0 : Fin 1))) * wd (ix2 o i)

/-- The partial sum over the `kb`-th range of 1024 columns. -/
def part (x : FVec Ideal S8192x4096 .f32) (sx : FVec Ideal S8192x1 .f32) (wd : FVec Ideal S11264x4096 .bf16)
    (r : Fin 8192) (o : Fin 11264) (kb : Fin 4) : EReal :=
  ∑ kk : Fin 1024, term x sx wd r o (col kb kk)

/-- One entry of the product, as accumulated: from 0, the four partial sums added in order. -/
def mmulAt (x : FVec Ideal S8192x4096 .f32) (sx : FVec Ideal S8192x1 .f32) (wd : FVec Ideal S11264x4096 .bf16)
    (r : Fin 8192) (o : Fin 11264) : EReal :=
  (((0 + part x sx wd r o 0) + part x sx wd r o 1) + part x sx wd r o 2) + part x sx wd r o 3

/-- The product. -/
def mmul (x : FVec Ideal S8192x4096 .f32) (sx : FVec Ideal S8192x1 .f32) (wd : FVec Ideal S11264x4096 .bf16) :
    FVec Ideal S8192x11264 .f32 :=
  fun j => mmulAt x sx wd (j 0) (j 1)

/-- Over the extended reals the ordered chain is the plain sum over all 4096 columns. -/
theorem mmulAt_eq_sum (x : FVec Ideal S8192x4096 .f32) (sx : FVec Ideal S8192x1 .f32) (wd : FVec Ideal S11264x4096 .bf16)
    (r : Fin 8192) (o : Fin 11264) : mmulAt x sx wd r o = ∑ i : Fin 4096, term x sx wd r o i := by
  unfold mmulAt part
  rw [zero_add]
  -- column kb · 1024 + kk of the (kb, kk)-th pair: the pairs (kb, kk) enumerate the 4096 columns exactly once
  rw [← Fintype.sum_equiv (finProdFinEquiv (m := 4) (n := 1024)) (fun p => term x sx wd r o (col p.1 p.2))
    (fun i => term x sx wd r o i) (fun p => by
      congr 1
      apply Fin.ext
      simp only [col, finProdFinEquiv_apply_val]
      omega)]
  rw [Fintype.sum_prod_type, Fin.sum_univ_four]

end Cert.Spec

end
-- ==== Proof.DequantValue.lean ====
/-
  Region 0's result, read as a value over the extended reals: after its 44 write-backs the dequantised-weight array holds
  `Spec.deq` of the padded weight, scale and offset arrays as the region found them. Point t writes back rows
  256·t … 256·t + 255; the body's result at row p, column q of its block is (w − off)·sc at the block's row p, column q and
  group q / 128 (the casts [256, 4096] ↔ [256, 32, 128] put column q at group q / 128, lane q mod 128; the narrowing to
  bf16 is the identity over the reals); the 44 blocks tile the array.
-/
import proofs.«151683_j63213328662919_1_alg».proof.Proof.KernelIdeal.Dequant
import proofs.«151683_j63213328662919_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open scoped BigOperators
open Cert.KernelIdeal Cert.KernelIdeal.Gen

variable (V : (c : Dev nD) → (b : Ref sig .tc) → Buf (Elt Ideal) ((c : Thread nD τ).loc b))

/-- The body's result at row `p`, column `q` of its block: the casts [256, 4096] ↔ [256, 32, 128] put column `q` at
    group `q / 128`, lane `q mod 128`; the group's offset and scale are spread over its 128 lanes; the narrowing is the
    identity over the extended reals. -/
theorem deq_pay_apply (v0 : Vec Ideal S256x4096 .f32) (v3 v6 : Vec Ideal S256x32 .f32) (p : Fin 256) (q : Fin 4096) :
    k0_pay1 v0 v3 v6 (ix2 p q)
      = (v0 (ix2 p q) - v6 (ix2 p (Cert.Spec.grp q))) * v3 (ix2 p (Cert.Spec.grp q)) := by
  have hq := q.isLt
  have hp := p.isLt
  unfold k0_pay1
  simp only [shapeCast_self]
  rw [truncf_apply]
  rw [shapeCast_apply _ _ (ix2 p q) (ix3 p (Cert.Spec.grp q) (⟨q.val % 128, Nat.mod_lt _ (by decide)⟩ : Fin 128))
    (by rw [Shape.rowMajor_val_two, Shape.rowMajor_val_three]
        show ((p.val * 32 + q.val / 128) * 128 + q.val % 128) = p.val * 4096 + q.val
        omega)]
  rw [mulf_apply, subf_apply]
  rw [shapeCast_apply v0 _ (ix3 p (Cert.Spec.grp q) (⟨q.val % 128, Nat.mod_lt _ (by decide)⟩ : Fin 128)) (ix2 p q)
    (by rw [Shape.rowMajor_val_two, Shape.rowMajor_val_three]
        show p.val * 4096 + q.val = ((p.val * 32 + q.val / 128) * 128 + q.val % 128)
        omega)]
  rw [broadcastTo_apply _ _ (ix3 p (Cert.Spec.grp q) (⟨q.val % 128, Nat.mod_lt _ (by decide)⟩ : Fin 128))
      (ix3 p (Cert.Spec.grp q) (0 : Fin 1)) (fun a => by match a with | ⟨0, _⟩ => rfl | ⟨1, _⟩ => rfl | ⟨2, _⟩ => rfl),
    broadcastTo_apply _ _ (ix3 p (Cert.Spec.grp q) (⟨q.val % 128, Nat.mod_lt _ (by decide)⟩ : Fin 128))
      (ix3 p (Cert.Spec.grp q) (0 : Fin 1)) (fun a => by match a with | ⟨0, _⟩ => rfl | ⟨1, _⟩ => rfl | ⟨2, _⟩ => rfl)]
  rw [shapeCast_apply v6 _ (ix3 p (Cert.Spec.grp q) (0 : Fin 1)) (ix2 p (Cert.Spec.grp q))
      (by rw [Shape.rowMajor_val_two, Shape.rowMajor_val_three]
          show p.val * 32 + q.val / 128 = (p.val * 32 + q.val / 128) * 1 + 0
          omega),
    shapeCast_apply v3 _ (ix3 p (Cert.Spec.grp q) (0 : Fin 1)) (ix2 p (Cert.Spec.grp q))
      (by rw [Shape.rowMajor_val_two, Shape.rowMajor_val_three]
          show p.val * 32 + q.val / 128 = (p.val * 32 + q.val / 128) * 1 + 0
          omega)]

/-- The zero offsets of a whole-block access, as a function. -/
theorem deq_hz : (![0, 0] : Fin 2 → Nat) = fun _ => 0 := funext fun a => by fin_cases a <;> rfl

/-- At point `t` every window's block index is `(t, 0)`. -/
theorem deq_idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row `p` of point `t`'s block is row `256·t + p` of the array. -/
def deqRow (t : Fin cfg0.N) (p : Fin 256) : Fin 11264 :=
  ⟨t.val * 256 + p.val, by have ht : t.val < 44 := lt_of_lt_of_eq t.isLt N_0; have := p.isLt; omega⟩

/-- Where the weight window's block at point `t` sits in the weight array … -/
theorem deq_emb_wt (t : Fin cfg0.N) (p : Fin 256) (q : Fin 4096) :
    ((cfg0.win 0).blk t).view.emb (ix2 p q) = ix2 (deqRow t p) q := by
  obtain ⟨e0, e1, -⟩ := deq_idx_facts t
  funext a; apply Fin.ext
  match a with
  | ⟨0, _⟩ => show win0_0.index t (0 : Fin 2) * 256 + 1 * p.val = t.val * 256 + p.val; omega
  | ⟨1, _⟩ => show win0_0.index t (1 : Fin 2) * 4096 + 1 * q.val = q.val; omega

/-- … the scale window's in the scale array … -/
theorem deq_emb_sc (t : Fin cfg0.N) (p : Fin 256) (g : Fin 32) :
    ((cfg0.win 1).blk t).view.emb (ix2 p g) = ix2 (deqRow t p) g := by
  obtain ⟨-, -, e0, e1, -⟩ := deq_idx_facts t
  funext a; apply Fin.ext
  match a with
  | ⟨0, _⟩ => show win0_1.index t (0 : Fin 2) * 256 + 1 * p.val = t.val * 256 + p.val; omega
  | ⟨1, _⟩ => show win0_1.index t (1 : Fin 2) * 32 + 1 * g.val = g.val; omega

/-- … the offset window's in the offset array … -/
theorem deq_emb_off (t : Fin cfg0.N) (p : Fin 256) (g : Fin 32) :
    ((cfg0.win 2).blk t).view.emb (ix2 p g) = ix2 (deqRow t p) g := by
  obtain ⟨-, -, -, -, e0, e1, -⟩ := deq_idx_facts t
  funext a; apply Fin.ext
  match a with
  | ⟨0, _⟩ => show win0_2.index t (0 : Fin 2) * 256 + 1 * p.val = t.val * 256 + p.val; omega
  | ⟨1, _⟩ => show win0_2.index t (1 : Fin 2) * 32 + 1 * g.val = g.val; omega

/-- … and the output window's in the output array: the same rows. -/
theorem deq_emb_out (t : Fin cfg0.N) (p : Fin 256) (q : Fin 4096) :
    ((cfg0.win 3).blk t).view.emb (ix2 p q) = ix2 (deqRow t p) q := by
  obtain ⟨-, -, -, -, -, -, e0, e1⟩ := deq_idx_facts t
  funext a; apply Fin.ext
  match a with
  | ⟨0, _⟩ => show win0_3.index t (0 : Fin 2) * 256 + 1 * p.val = t.val * 256 + p.val; omega
  | ⟨1, _⟩ => show win0_3.index t (1 : Fin 2) * 4096 + 1 * q.val = q.val; omega

/-- The three input blocks at point `t`, read at an index, are the arrays read at the block's rows. -/
theorem deq_blk_wt (c : Dev nD) (t : Fin cfg0.N) (p : Fin 256) (q : Fin 4096) :
    iblk0 V c 0 t (ix2 p q) = (V c main_v0 : FVec Ideal S11264x4096 .f32) (ix2 (deqRow t p) q) := by
  show V c main_v0 (((cfg0.win 0).blk t).view.emb (ix2 p q)) = _
  rw [deq_emb_wt]
theorem deq_blk_sc (c : Dev nD) (t : Fin cfg0.N) (p : Fin 256) (g : Fin 32) :
    iblk0 V c 1 t (ix2 p g) = (V c main_v1 : FVec Ideal S11264x32 .f32) (ix2 (deqRow t p) g) := by
  show V c main_v1 (((cfg0.win 1).blk t).view.emb (ix2 p g)) = _
  rw [deq_emb_sc]
theorem deq_blk_off (c : Dev nD) (t : Fin cfg0.N) (p : Fin 256) (g : Fin 32) :
    iblk0 V c 2 t (ix2 p g) = (V c main_v2 : FVec Ideal S11264x32 .f32) (ix2 (deqRow t p) g) := by
  show V c main_v2 (((cfg0.win 2).blk t).view.emb (ix2 p g)) = _
  rw [deq_emb_off]

/-- What point `t` writes back is block `t` of the dequantised weights of the arrays as the region finds them. -/
theorem deq_flushed_eq (c : Dev nD) (t : Fin cfg0.N) :
    (dat0 (F := Ideal) V c).flushed 3 t
      = ((cfg0.win 3).blk t).view.read (Elt Ideal) (Cert.Spec.deq (V c main_v0) (V c main_v1) (V c main_v2)) := by
  show (cfg0.win 3).cut (grid0.coords t) ((dat0 V c).after 3 t) = _
  rw [after0_3]
  unfold out0_3
  rw [View.canon_unit_zero deq_hz]
  simp only [View.ld_unit_zero (S := S256x4096) deq_hz, View.ld_unit_zero (S := S256x32) deq_hz]
  funext j
  obtain ⟨p, q, rfl⟩ : ∃ (p : Fin 256) (q : Fin 4096), j = ix2 p q := ⟨j 0, j 1, eq_ix2 j⟩
  show k0_pay1 (iblk0 V c 0 t) (iblk0 V c 1 t) (iblk0 V c 2 t) (ix2 p q)
    = Cert.Spec.deq (V c main_v0) (V c main_v1) (V c main_v2) (((cfg0.win 3).blk t).view.emb (ix2 p q))
  rw [deq_pay_apply, deq_emb_out, deq_blk_wt, deq_blk_sc, deq_blk_off]
  rfl

/-- An index of the array is in point `t`'s block iff each coordinate is in the block's range on its axis. -/
theorem deq_mem_blk (t : Fin cfg0.N) (i : S11264x4096.Idx) :
    i ∈ ((cfg0.win 3).blk t).view.set ↔ ∀ a : Fin 2, win0_3.index t a * S256x4096.size a ≤ (i a).val
      ∧ (i a).val < win0_3.index t a * S256x4096.size a + S256x4096.size a := by
  show i ∈ ((View.whole main_v3).slice (win0_3.rect t)).set ↔ _
  rw [View.set_slice_whole, Rect.mem_set_unit]
  exact Iff.rfl

/-- The 44 blocks tile the array: row `r` is in block `r / 256`. -/
theorem deq_cover (i : S11264x4096.Idx) :
    ∃ t : Fin cfg0.N, (cfg0.win 3).flush t = true ∧ i ∈ ((cfg0.win 3).blk t).view.set := by
  have hi0 : (i 0).val < 11264 := (i 0).isLt
  have hi1 : (i 1).val < 4096 := (i 1).isLt
  obtain ⟨t, ht⟩ : ∃ t : Fin cfg0.N, t.val = (i 0).val / 256 :=
    ⟨⟨(i 0).val / 256, by rw [show cfg0.N = 44 from N_0]; omega⟩, rfl⟩
  obtain ⟨-, -, -, -, -, -, e0, e1⟩ := deq_idx_facts t
  refine ⟨t, flush0_3 t, ?_⟩
  rw [deq_mem_blk]
  intro a
  match a with
  | ⟨0, _⟩ =>
    show win0_3.index t (0 : Fin 2) * 256 ≤ (i 0).val ∧ (i 0).val < win0_3.index t (0 : Fin 2) * 256 + 256
    omega
  | ⟨1, _⟩ =>
    show win0_3.index t (1 : Fin 2) * 4096 ≤ (i 1).val ∧ (i 1).val < win0_3.index t (1 : Fin 2) * 4096 + 4096
    omega

/-- The dequantised-weight array after region 0. -/
theorem final0 (c : Dev nD) :
    (dat0 (F := Ideal) V c).arrAt 3 cfg0.N = Cert.Spec.deq (V c main_v0) (V c main_v1) (V c main_v2) :=
  (dat0 V c).arrAt_eq_of_cover 3 (Cert.Spec.deq (V c main_v0) (V c main_v1) (V c main_v2))
    (fun t _ => deq_flushed_eq V c t) deq_cover

end Cert.KernelIdeal.Hand

end
-- ==== Proof.MatmulValue.lean ====
/-
  Region 1's result, read as a value over the extended reals: after the region the product array holds `Spec.mmul` of the
  reshaped activations, their per-row scales and the dequantised weights as the region found them. At point
  t = (i·11 + j)·4 + k the accumulator ends at the start value 0 plus the partial sums of reduction steps 0 … k for row
  tile i and column tile j (by induction on the point: k = 0 starts from the stored zero, k > 0 adds to what the point
  before left); the matrix unit's product into a zero accumulator is, over the reals, the sum over the 1024 contracted
  columns of (x · sx) · w, the narrowing to bf16 being the identity; the write-back at k = 3 stores the accumulator, and
  the 44 written blocks tile the array.
-/
import proofs.«151683_j63213328662919_1_alg».proof.Proof.KernelIdeal.Matmul
import proofs.«151683_j63213328662919_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Idealize.ShloMosaic.Tactic
open scoped BigOperators
open Cert.KernelIdeal Cert.KernelIdeal.Gen

namespace Product

/-! ## What each case's found pieces are -/

section Pieces

variable {F : FTy → Type} [FloatOps F]

theorem hz2 : (![0, 0] : Fin 2 → Nat) = fun _ => 0 := funext fun a => by fin_cases a <;> rfl

/-- Case B (k = 1, 2): the one covering store's payload over what the point before left. -/
theorem sout1_B_eq (c : Dev nD) (i : grid1.Coords) (arg3 : Memref sig .tc .vmem S2048x1024 .f32) (harg3 : arg3.IsWhole) (arg4 : Memref sig .tc .vmem S2048x1 .f32) (harg4 : arg4.IsWhole) (arg5 : Memref sig .tc .vmem S1024x1024 .bf16) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : ¬cond1_1 i) (x0 : Vec F S2048x1024 .f32) (x1 : Vec F S2048x1 .f32) (x2 : Vec F S1024x1024 .bf16) (xs0 : Vec F S2048x1024 .f32) :
    sout1_B c i arg3 harg3 arg4 harg4 arg5 harg5 arg6 harg6 arg7 harg7 hc0 hc1 x0 x1 x2 xs0 = k1_pay2 x0 x1 x2 xs0 := by
  unfold sout1_B
  rw [View.read_writes_eq_canon _ _ _ (scover1_B c i arg3 harg3 arg4 harg4 arg5 harg5 arg6 harg6 arg7 harg7 hc0 hc1 x0 x1 x2 xs0)]
  unfold kernelRun1_B
  dsimp only
  sl_unfold_words
  rw [View.canon_unit_zero hz2]
  simp only [View.readAt_eq_ld, harg3.read_unread, harg4.read_unread, harg5.read_unread, harg7.read_unread,
    View.ld_unit_zero (S := S2048x1024) hz2, View.ld_unit_zero (S := S2048x1) hz2, View.ld_unit_zero (S := S1024x1024) hz2]

/-- Case C (k = 3), the accumulator: the same covering store. -/
theorem sout1_C_eq (c : Dev nD) (i : grid1.Coords) (arg3 : Memref sig .tc .vmem S2048x1024 .f32) (harg3 : arg3.IsWhole) (arg4 : Memref sig .tc .vmem S2048x1 .f32) (harg4 : arg4.IsWhole) (arg5 : Memref sig .tc .vmem S1024x1024 .bf16) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : cond1_1 i) (x0 : Vec F S2048x1024 .f32) (x1 : Vec F S2048x1 .f32) (x2 : Vec F S1024x1024 .bf16) (xs0 : Vec F S2048x1024 .f32) :
    sout1_C c i arg3 harg3 arg4 harg4 arg5 harg5 arg6 harg6 arg7 harg7 hc0 hc1 x0 x1 x2 xs0 = k1_pay2 x0 x1 x2 xs0 := by
  unfold sout1_C
  rw [View.read_writes_eq_canon _ _ _ (scover1_C c i arg3 harg3 arg4 harg4 arg5 harg5 arg6 harg6 arg7 harg7 hc0 hc1 x0 x1 x2 xs0)]
  unfold kernelRun1_C
  dsimp only
  sl_unfold_words
  rw [View.canon_unit_zero hz2]
  simp only [View.readAt_eq_ld, harg3.read_unread, harg4.read_unread, harg5.read_unread, harg7.read_unread,
    View.ld_unit_zero (S := S2048x1024) hz2, View.ld_unit_zero (S := S2048x1) hz2, View.ld_unit_zero (S := S1024x1024) hz2]

/-- Case C (k = 3), the output block: the accumulator just written, copied. -/
theorem out1_C_3_eq (c : Dev nD) (i : grid1.Coords) (arg3 : Memref sig .tc .vmem S2048x1024 .f32) (harg3 : arg3.IsWhole) (arg4 : Memref sig .tc .vmem S2048x1 .f32) (harg4 : arg4.IsWhole) (arg5 : Memref sig .tc .vmem S1024x1024 .bf16) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : cond1_1 i) (x0 : Vec F S2048x1024 .f32) (x1 : Vec F S2048x1 .f32) (x2 : Vec F S1024x1024 .bf16) (xs0 : Vec F S2048x1024 .f32) :
    out1_C_3 c i arg3 harg3 arg4 harg4 arg5 harg5 arg6 harg6 arg7 harg7 hc0 hc1 x0 x1 x2 xs0 = k1_pay2 x0 x1 x2 xs0 := by
  unfold out1_C_3
  rw [View.read_writes_eq_canon _ _ _ (cover1_C_3 c i arg3 harg3 arg4 harg4 arg5 harg5 arg6 harg6 arg7 harg7 hc0 hc1 x0 x1 x2 xs0)]
  unfold kernelRun1_C
  dsimp only
  sl_unfold_words
  rw [View.canon_unit_zero hz2]
  simp only [View.readAt_eq_ld, harg3.read_unread, harg4.read_unread, harg5.read_unread, harg7.read_unread,
    View.ld_unit_zero (S := S2048x1024) hz2, View.ld_unit_zero (S := S2048x1) hz2, View.ld_unit_zero (S := S1024x1024) hz2,
    View.readCov_unit_zero (S := S2048x1024) _ hz2]

/-- Case A (k = 0): the reset stores the zero block, the update reads it back. -/
theorem sout1_A_eq (c : Dev nD) (i : grid1.Coords) (arg3 : Memref sig .tc .vmem S2048x1024 .f32) (harg3 : arg3.IsWhole) (arg4 : Memref sig .tc .vmem S2048x1 .f32) (harg4 : arg4.IsWhole) (arg5 : Memref sig .tc .vmem S1024x1024 .bf16) (harg5 : arg5.IsWhole) (arg6 : Memref sig .tc .vmem S2048x1024 .f32) (harg6 : arg6.IsWhole) (arg7 : Memref sig .tc .vmem S2048x1024 .f32) (harg7 : arg7.IsWhole) (hc0 : cond1_0 i) (hc1 : ¬cond1_1 i) (x0 : Vec F S2048x1024 .f32) (x1 : Vec F S2048x1 .f32) (x2 : Vec F S1024x1024 .bf16) :
    sout1_A c i arg3 harg3 arg4 harg4 arg5 harg5 arg6 harg6 arg7 harg7 hc0 hc1 x0 x1 x2 = k1_pay2 x0 x1 x2 k1_pay1 := by
  unfold sout1_A
  rw [View.read_writes_eq_canon _ _ _ (scover1_A c i arg3 harg3 arg4 harg4 arg5 harg5 arg6 harg6 arg7 harg7 hc0 hc1 x0 x1 x2)]
  unfold kernelRun1_A
  dsimp only
  sl_unfold_words
  rw [View.canon_cons_unit_zero (S := S2048x1024) hz2, View.readCov_unit_zero (S := S2048x1024) _ hz2]
  simp only [View.readAt_eq_ld, harg3.read_unread, harg4.read_unread, harg5.read_unread,
    View.ld_unit_zero (S := S2048x1024) hz2, View.ld_unit_zero (S := S2048x1) hz2, View.ld_unit_zero (S := S1024x1024) hz2]

end Pieces

/-! ## The update's payload at an index, over the extended reals -/

section Payload

theorem mm_lhs_0 (i : S2048x1024.Idx) (q : dot_S2048x1024_S1024x1024_S2048x1024_1_1_0_0_n_n.contr.Idx) :
    (dot_S2048x1024_S1024x1024_S2048x1024_1_1_0_0_n_n.lhsIdx i q 0).val = (i 0).val := by
  unfold DotDims.lhsIdx
  rw [dif_neg (show ¬(0 : Fin S2048x1024.rank) ∈ dot_S2048x1024_S1024x1024_S2048x1024_1_1_0_0_n_n.lhsBatch by decide), dif_pos (show (0 : Fin S2048x1024.rank) ∈ dot_S2048x1024_S1024x1024_S2048x1024_1_1_0_0_n_n.lhsNonContracting by decide)]
  rfl
theorem mm_lhs_1 (i : S2048x1024.Idx) (q : dot_S2048x1024_S1024x1024_S2048x1024_1_1_0_0_n_n.contr.Idx) :
    (dot_S2048x1024_S1024x1024_S2048x1024_1_1_0_0_n_n.lhsIdx i q 1).val = (q ⟨0, by decide⟩).val :=
  dot_S2048x1024_S1024x1024_S2048x1024_1_1_0_0_n_n.lhsIdx_val_of_single rfl i q
theorem mm_rhs_0 (i : S2048x1024.Idx) (q : dot_S2048x1024_S1024x1024_S2048x1024_1_1_0_0_n_n.contr.Idx) :
    (dot_S2048x1024_S1024x1024_S2048x1024_1_1_0_0_n_n.rhsIdx i q 0).val = (i 1).val := by
  unfold DotDims.rhsIdx
  rw [dif_neg (show ¬(0 : Fin S1024x1024.rank) ∈ dot_S2048x1024_S1024x1024_S2048x1024_1_1_0_0_n_n.rhsBatch by decide), dif_pos (show (0 : Fin S1024x1024.rank) ∈ dot_S2048x1024_S1024x1024_S2048x1024_1_1_0_0_n_n.rhsNonContracting by decide)]
  rfl
theorem mm_rhs_1 (i : S2048x1024.Idx) (q : dot_S2048x1024_S1024x1024_S2048x1024_1_1_0_0_n_n.contr.Idx) :
    (dot_S2048x1024_S1024x1024_S2048x1024_1_1_0_0_n_n.rhsIdx i q 1).val = (q ⟨0, by decide⟩).val :=
  dot_S2048x1024_S1024x1024_S2048x1024_1_1_0_0_n_n.rhsIdx_val_of_single rfl i q

/-- The matrix unit's product into the zero accumulator, at row p and column q: the sum over the 1024 contracted
    columns of the products of the operands' entries (the right operand is read transposed: row q, column kk). -/
theorem mm_apply (a : FVec Ideal S2048x1024 .bf16) (b : FVec Ideal S1024x1024 .bf16) (p : Fin 2048) (q : Fin 1024) :
    matmul dot_S2048x1024_S1024x1024_S2048x1024_1_1_0_0_n_n none a b (constant (F := Ideal) S2048x1024 .f32 0x00000000#32) (ix2 p q)
      = ∑ kk : Fin 1024, a (ix2 p kk) * b (ix2 q kk) := by
  simp only [matmul]
  rw [Ideal.matmul_constant_zero_apply, ← Equiv.sum_comp (ValueIdx.contrEquiv1 dot_S2048x1024_S1024x1024_S2048x1024_1_1_0_0_n_n 1024 rfl rfl).symm]
  refine Finset.sum_congr rfl fun k _ => ?_
  have hk := ValueIdx.contrEquiv1_symm_val dot_S2048x1024_S1024x1024_S2048x1024_1_1_0_0_n_n 1024 rfl rfl k
  have el : dot_S2048x1024_S1024x1024_S2048x1024_1_1_0_0_n_n.lhsIdx (ix2 p q) ((ValueIdx.contrEquiv1 dot_S2048x1024_S1024x1024_S2048x1024_1_1_0_0_n_n 1024 rfl rfl).symm k) = ix2 p k := funext fun a => Fin.ext (by
    match a with
    | ⟨0, _⟩ => exact mm_lhs_0 _ _
    | ⟨1, _⟩ => exact (mm_lhs_1 _ _).trans hk)
  have er : dot_S2048x1024_S1024x1024_S2048x1024_1_1_0_0_n_n.rhsIdx (ix2 p q) ((ValueIdx.contrEquiv1 dot_S2048x1024_S1024x1024_S2048x1024_1_1_0_0_n_n 1024 rfl rfl).symm k) = ix2 q k := funext fun a => Fin.ext (by
    match a with
    | ⟨0, _⟩ => exact mm_rhs_0 _ _
    | ⟨1, _⟩ => exact (mm_rhs_1 _ _).trans hk)
  rw [el, er]

/-- The per-row scale broadcast along the columns. -/
theorem bcast_col_apply (x : FVec Ideal S2048x1 .f32) (p : Fin 2048) (kk : Fin 1024) :
    broadcastTo S2048x1024 x broadcasts_S2048x1_S2048x1024 (ix2 p kk) = x (ix2 p (0 : Fin 1)) := by
  refine broadcastTo_apply x broadcasts_S2048x1_S2048x1024 (ix2 p kk) (ix2 p (0 : Fin 1)) fun a => ?_
  match a with
  | ⟨0, _⟩ => rfl
  | ⟨1, _⟩ => rfl

/-- The update at row p, column q: the accumulator as loaded plus the sum over the 1024 contracted columns of
    (activation · row scale) · weight. -/
theorem k1_pay2_apply (x0 : FVec Ideal S2048x1024 .f32) (x1 : FVec Ideal S2048x1 .f32) (x2 : FVec Ideal S1024x1024 .bf16)
    (acc : FVec Ideal S2048x1024 .f32) (p : Fin 2048) (q : Fin 1024) :
    k1_pay2 (F := Ideal) x0 x1 x2 acc (ix2 p q)
      = acc (ix2 p q) + ∑ kk : Fin 1024, (x0 (ix2 p kk) * x1 (ix2 p (0 : Fin 1))) * x2 (ix2 q kk) := by
  unfold k1_pay2
  simp only [shapeCast_self]
  rw [addf_apply, mm_apply]
  refine congrArg (acc (ix2 p q) + ·) (Finset.sum_congr rfl fun kk _ => ?_)
  rw [truncf_apply, mulf_apply, bcast_col_apply]

/-- The reset's payload: the zero block. -/
theorem k1_pay1_apply (j : S2048x1024.Idx) : k1_pay1 (F := Ideal) j = 0 := by
  unfold k1_pay1
  simp only [shapeCast_self]
  exact Ideal.ofBits_zero_f32

end Payload

/-! ## The blocks the body is run on, read off the arrays -/

variable (V : (c : Dev nD) → (b : Ref sig .tc) → Buf (Elt Ideal) ((c : Thread nD τ).loc b))

/-- The activation, scale and weight blocks at a point, and the three arrays, under their literal types. -/
abbrev xblk (c : Dev nD) (t : Fin cfg1.N) : FVec Ideal S2048x1024 .f32 := iblk1 V c 0 t
abbrev sblk (c : Dev nD) (t : Fin cfg1.N) : FVec Ideal S2048x1 .f32 := iblk1 V c 1 t
abbrev wblk (c : Dev nD) (t : Fin cfg1.N) : FVec Ideal S1024x1024 .bf16 := iblk1 V c 2 t
abbrev xarr (c : Dev nD) : FVec Ideal S8192x4096 .f32 := V c main_v4
abbrev sarr (c : Dev nD) : FVec Ideal S8192x1 .f32 := V c main_v5
abbrev warr (c : Dev nD) : FVec Ideal S11264x4096 .bf16 := V c main_v3

/-- The index maps in closed form over the grid: at point t = (i·11 + j)·4 + k the activations' block is (i, k), the
    scales' (i, 0), the weights' (j, k), the product's (i, j). -/
theorem idx_facts1 : ∀ t : Fin cfg1.N,
    win1_0.index t (0 : Fin 2) = t.val / 44 ∧ win1_0.index t (1 : Fin 2) = t.val % 4
    ∧ win1_1.index t (0 : Fin 2) = t.val / 44 ∧ win1_1.index t (1 : Fin 2) = 0
    ∧ win1_2.index t (0 : Fin 2) = t.val / 4 % 11 ∧ win1_2.index t (1 : Fin 2) = t.val % 4
    ∧ win1_3.index t (0 : Fin 2) = t.val / 44 ∧ win1_3.index t (1 : Fin 2) = t.val / 4 % 11 :=
  (by decide +kernel : ∀ t : Fin grid1.N, _)

/-- The activation block at point t, row p, column kk, is the array at row 2048·i + p, column 1024·k + kk. -/
theorem xblk_apply (c : Dev nD) (t : Fin cfg1.N) (p : Fin 2048) (kk : Fin 1024) (r : Fin 8192) (i : Fin 4096)
    (hr : r.val = 2048 * (t.val / 44) + p.val) (hi : i.val = 1024 * (t.val % 4) + kk.val) :
    xblk V c t (ix2 p kk) = xarr V c (ix2 r i) := by
  obtain ⟨e0, e1, -⟩ := idx_facts1 t
  show iblk1 V c 0 t (ix2 p kk) = V c main_v4 (ix2 r i)
  unfold iblk1
  rw [View.read_apply]
  show V c main_v4 _ = V c main_v4 _
  congr 1
  funext a
  apply Fin.ext
  match a with
  | ⟨0, _⟩ => show win1_0.index t (0 : Fin 2) * 2048 + 1 * p.val = r.val; omega
  | ⟨1, _⟩ => show win1_0.index t (1 : Fin 2) * 1024 + 1 * kk.val = i.val; omega

/-- The scale block at point t, row p, is the array at row 2048·i + p. -/
theorem sblk_apply (c : Dev nD) (t : Fin cfg1.N) (p : Fin 2048) (r : Fin 8192)
    (hr : r.val = 2048 * (t.val / 44) + p.val) :
    sblk V c t (ix2 p (0 : Fin 1)) = sarr V c (ix2 r (0 : Fin 1)) := by
  obtain ⟨-, -, e0, e1, -⟩ := idx_facts1 t
  show iblk1 V c 1 t (ix2 p (0 : Fin 1)) = V c main_v5 (ix2 r (0 : Fin 1))
  unfold iblk1
  rw [View.read_apply]
  show V c main_v5 _ = V c main_v5 _
  congr 1
  funext a
  apply Fin.ext
  match a with
  | ⟨0, _⟩ => show win1_1.index t (0 : Fin 2) * 2048 + 1 * p.val = r.val; omega
  | ⟨1, _⟩ => show win1_1.index t (1 : Fin 2) * 1 + 1 * 0 = 0; omega

/-- The weight block at point t, row q, column kk, is the array at row 1024·j + q, column 1024·k + kk. -/
theorem wblk_apply (c : Dev nD) (t : Fin cfg1.N) (q : Fin 1024) (kk : Fin 1024) (o : Fin 11264) (i : Fin 4096)
    (ho : o.val = 1024 * (t.val / 4 % 11) + q.val) (hi : i.val = 1024 * (t.val % 4) + kk.val) :
    wblk V c t (ix2 q kk) = warr V c (ix2 o i) := by
  obtain ⟨-, -, -, -, e0, e1, -⟩ := idx_facts1 t
  show iblk1 V c 2 t (ix2 q kk) = V c main_v3 (ix2 o i)
  unfold iblk1
  rw [View.read_apply]
  show V c main_v3 _ = V c main_v3 _
  congr 1
  funext a
  apply Fin.ext
  match a with
  | ⟨0, _⟩ => show win1_2.index t (0 : Fin 2) * 1024 + 1 * q.val = o.val; omega
  | ⟨1, _⟩ => show win1_2.index t (1 : Fin 2) * 1024 + 1 * kk.val = i.val; omega

/-- The tile product of point t at row p, column q, is the partial sum of reduction step k = t mod 4 at row
    2048·i + p, column 1024·j + q. -/
theorem tile_eq_part (c : Dev nD) (t : Fin cfg1.N) (p : Fin 2048) (q : Fin 1024) (r : Fin 8192) (o : Fin 11264) (kb : Fin 4)
    (hr : r.val = 2048 * (t.val / 44) + p.val) (ho : o.val = 1024 * (t.val / 4 % 11) + q.val) (hk : kb.val = t.val % 4) :
    ∑ kk : Fin 1024, (xblk V c t (ix2 p kk) * sblk V c t (ix2 p (0 : Fin 1))) * wblk V c t (ix2 q kk)
      = Cert.Spec.part (xarr V c) (sarr V c) (warr V c) r o kb := by
  unfold Cert.Spec.part Cert.Spec.term
  refine Finset.sum_congr rfl fun kk _ => ?_
  have hi : (Cert.Spec.col kb kk).val = 1024 * (t.val % 4) + kk.val := by
    show kb.val * 1024 + kk.val = _
    omega
  rw [xblk_apply V c t p kk r (Cert.Spec.col kb kk) hr hi, sblk_apply V c t p r hr,
    wblk_apply V c t q kk o (Cert.Spec.col kb kk) ho hi]

/-! ## The accumulator from point to point -/

/-- What the accumulator holds after point t. -/
def accAt (c : Dev nD) (t : Fin cfg1.N) : FVec Ideal S2048x1024 .f32 := (outsAt1 V c t.val t.isLt).2

/-- The same at a position given as a number. -/
theorem outsAt1_congr (c : Dev nD) (n n' : ℕ) (h : n < cfg1.N) (h' : n' < cfg1.N) (e : n = n') :
    outsAt1 V c n h = outsAt1 V c n' h' := by
  subst e; rfl

/-- At k = 0 the accumulator ends at the stored zero plus the tile product. -/
theorem acc_first (c : Dev nD) (t : Fin cfg1.N) (h0 : t.val % 4 = 0) (p : Fin 2048) (q : Fin 1024) :
    accAt V c t (ix2 p q)
      = 0 + ∑ kk : Fin 1024, (xblk V c t (ix2 p kk) * sblk V c t (ix2 p (0 : Fin 1))) * wblk V c t (ix2 q kk) := by
  have h1 : ¬t.val % 4 = 3 := by omega
  unfold accAt
  rw [outsAt1_A V c t h0 h1]
  dsimp only
  refine (congrFun (sout1_A_eq (F := Ideal) c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)) (ix2 p q)).trans ?_
  refine (k1_pay2_apply (iblk1 V c 0 t) (iblk1 V c 1 t) (iblk1 V c 2 t) (k1_pay1 (F := Ideal)) p q).trans ?_
  rw [k1_pay1_apply]

/-- At k > 0 the accumulator ends at what the point before left plus the tile product. -/
theorem acc_step (c : Dev nD) (t s : Fin cfg1.N) (hs : s.val = t.val - 1) (h0 : ¬t.val % 4 = 0) (p : Fin 2048) (q : Fin 1024) :
    accAt V c t (ix2 p q)
      = accAt V c s (ix2 p q) + ∑ kk : Fin 1024, (xblk V c t (ix2 p kk) * sblk V c t (ix2 p (0 : Fin 1))) * wblk V c t (ix2 q kk) := by
  have hprev : outsAt1 V c (t.val - 1) (Nat.lt_of_le_of_lt (Nat.sub_le _ _) t.isLt) = outsAt1 V c s.val s.isLt :=
    outsAt1_congr V c _ _ _ _ hs.symm
  unfold accAt
  by_cases h1 : t.val % 4 = 3
  · rw [outsAt1_C V c t h0 h1]
    dsimp only
    rw [hprev]
    refine (congrFun (sout1_C_eq (F := Ideal) c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c s.val s.isLt).2) (ix2 p q)).trans ?_
    exact k1_pay2_apply (iblk1 V c 0 t) (iblk1 V c 1 t) (iblk1 V c 2 t) (outsAt1 V c s.val s.isLt).2 p q
  · rw [outsAt1_B V c t h0 h1]
    dsimp only
    rw [hprev]
    refine (congrFun (sout1_B_eq (F := Ideal) c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c s.val s.isLt).2) (ix2 p q)).trans ?_
    exact k1_pay2_apply (iblk1 V c 0 t) (iblk1 V c 1 t) (iblk1 V c 2 t) (outsAt1 V c s.val s.isLt).2 p q

/-- At k = 3 the output block is left at what the point before left in the accumulator plus the tile product. -/
theorem out_last (c : Dev nD) (t s : Fin cfg1.N) (hs : s.val = t.val - 1) (h1 : t.val % 4 = 3) (p : Fin 2048) (q : Fin 1024) :
    (outsAt1 V c t.val t.isLt).1 (ix2 p q)
      = accAt V c s (ix2 p q) + ∑ kk : Fin 1024, (xblk V c t (ix2 p kk) * sblk V c t (ix2 p (0 : Fin 1))) * wblk V c t (ix2 q kk) := by
  have h0 : ¬t.val % 4 = 0 := by omega
  have hprev : outsAt1 V c (t.val - 1) (Nat.lt_of_le_of_lt (Nat.sub_le _ _) t.isLt) = outsAt1 V c s.val s.isLt :=
    outsAt1_congr V c _ _ _ _ hs.symm
  unfold accAt
  rw [outsAt1_C V c t h0 h1]
  dsimp only
  rw [hprev]
  refine (congrFun (out1_C_3_eq (F := Ideal) c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c s.val s.isLt).2) (ix2 p q)).trans ?_
  exact k1_pay2_apply (iblk1 V c 0 t) (iblk1 V c 1 t) (iblk1 V c 2 t) (outsAt1 V c s.val s.isLt).2 p q

/-- The block a point with k = 3 leaves for the write-back, at row p, column q: the product's entry at row
    2048·i + p, column 1024·j + q, the four partial sums added in order from 0. -/
theorem out_eq_mmulAt (c : Dev nD) (t : Fin cfg1.N) (h1 : t.val % 4 = 3) (p : Fin 2048) (q : Fin 1024)
    (r : Fin 8192) (o : Fin 11264) (hr : r.val = 2048 * (t.val / 44) + p.val) (ho : o.val = 1024 * (t.val / 4 % 11) + q.val) :
    (outsAt1 V c t.val t.isLt).1 (ix2 p q) = Cert.Spec.mmulAt (xarr V c) (sarr V c) (warr V c) r o := by
  have hN : cfg1.N = 176 := N_1
  have hlt : t.val < 176 := lt_of_lt_of_eq t.isLt hN
  let u2 : Fin cfg1.N := ⟨t.val - 1, by omega⟩
  let u1 : Fin cfg1.N := ⟨t.val - 2, by omega⟩
  let u0 : Fin cfg1.N := ⟨t.val - 3, by omega⟩
  have e2 : u2.val = t.val - 1 := rfl
  have e1 : u1.val = t.val - 2 := rfl
  have e0 : u0.val = t.val - 3 := rfl
  rw [out_last V c t u2 rfl h1 p q,
    acc_step V c u2 u1 (by rw [e2, e1]; omega) (by rw [e2]; omega) p q,
    acc_step V c u1 u0 (by rw [e1, e0]; omega) (by rw [e1]; omega) p q,
    acc_first V c u0 (by rw [e0]; omega) p q,
    tile_eq_part V c t p q r o 3 hr ho (by show 3 = _; omega),
    tile_eq_part V c u2 p q r o 2 (by rw [e2]; omega) (by rw [e2]; omega) (by rw [e2]; show 2 = _; omega),
    tile_eq_part V c u1 p q r o 1 (by rw [e1]; omega) (by rw [e1]; omega) (by rw [e1]; show 1 = _; omega),
    tile_eq_part V c u0 p q r o 0 (by rw [e0]; omega) (by rw [e0]; omega) (by rw [e0]; show 0 = _; omega)]
  rfl

/-! ## From the written-back blocks to the array -/

/-- What a point with k = 3 writes back is its block of the product. -/
theorem flushed_eq (c : Dev nD) (t : Fin cfg1.N) (hf : (cfg1.win 3).flush t = true) :
    (dat1 (F := Ideal) V c).flushed 3 t
      = ((cfg1.win 3).blk t).view.read (Elt Ideal) (Cert.Spec.mmul (xarr V c) (sarr V c) (warr V c)) := by
  have h1 : t.val % 4 = 3 := (flush1_3 t).mp hf
  have hlt : t.val < 176 := lt_of_lt_of_eq t.isLt (show cfg1.N = 176 from N_1)
  obtain ⟨-, -, -, -, -, -, e0, e1⟩ := idx_facts1 t
  show (cfg1.win 3).cut (grid1.coords t) ((dat1 V c).after 3 t) = _
  rw [after1_3]
  funext j
  obtain ⟨p, q, rfl⟩ : ∃ (p : Fin 2048) (q : Fin 1024), j = ix2 p q := ⟨j 0, j 1, eq_ix2 j⟩
  rw [View.read_apply]
  have hp := p.isLt
  have hq := q.isLt
  refine (out_eq_mmulAt V c t h1 p q ⟨2048 * (t.val / 44) + p.val, by omega⟩ ⟨1024 * (t.val / 4 % 11) + q.val, by omega⟩ rfl rfl).trans ?_
  show _ = Cert.Spec.mmulAt (xarr V c) (sarr V c) (warr V c) ((((cfg1.win 3).blk t).view.emb (ix2 p q)) 0) ((((cfg1.win 3).blk t).view.emb (ix2 p q)) 1)
  congr 1
  · apply Fin.ext
    show 2048 * (t.val / 44) + p.val = win1_3.index t (0 : Fin 2) * 2048 + 1 * p.val
    omega
  · apply Fin.ext
    show 1024 * (t.val / 4 % 11) + q.val = win1_3.index t (1 : Fin 2) * 1024 + 1 * q.val
    omega

/-- An index of the product array is in point t's block iff each coordinate is in the block's range on its axis. -/
theorem mem_blk_out (t : Fin cfg1.N) (i : S8192x11264.Idx) :
    i ∈ ((cfg1.win 3).blk t).view.set ↔ ∀ a : Fin 2, win1_3.index t a * S2048x1024.size a ≤ (i a).val ∧ (i a).val < win1_3.index t a * S2048x1024.size a + S2048x1024.size a := by
  show i ∈ ((View.whole main_v6).slice (win1_3.rect t)).set ↔ _
  rw [View.set_slice_whole, Rect.mem_set_unit]
  exact Iff.rfl

/-- Row r, column o of the product array is in the block written back at the point
    t = ((r / 2048)·11 + o / 1024)·4 + 3. -/
theorem cover_out (i : S8192x11264.Idx) :
    ∃ t : Fin cfg1.N, (cfg1.win 3).flush t = true ∧ i ∈ ((cfg1.win 3).blk t).view.set := by
  have hN : cfg1.N = 176 := N_1
  have h0 : (i 0).val < 8192 := (i 0).isLt
  have h1 : (i 1).val < 11264 := (i 1).isLt
  let t : Fin cfg1.N := ⟨((i 0).val / 2048 * 11 + (i 1).val / 1024) * 4 + 3, by rw [hN]; omega⟩
  have ht : t.val = ((i 0).val / 2048 * 11 + (i 1).val / 1024) * 4 + 3 := rfl
  obtain ⟨-, -, -, -, -, -, e0, e1⟩ := idx_facts1 t
  refine ⟨t, (flush1_3 t).mpr (by rw [ht]; omega), ?_⟩
  rw [mem_blk_out]
  intro a
  match a with
  | ⟨0, _⟩ => show win1_3.index t (0 : Fin 2) * 2048 ≤ (i 0).val ∧ (i 0).val < win1_3.index t (0 : Fin 2) * 2048 + 2048; omega
  | ⟨1, _⟩ => show win1_3.index t (1 : Fin 2) * 1024 ≤ (i 1).val ∧ (i 1).val < win1_3.index t (1 : Fin 2) * 1024 + 1024; omega

end Product

variable (V : (c : Dev nD) → (b : Ref sig .tc) → Buf (Elt Ideal) ((c : Thread nD τ).loc b))

/-- The product array after region 1. -/
theorem final1 (c : Dev nD) :
    (dat1 (F := Ideal) V c).arrAt 3 cfg1.N = Cert.Spec.mmul (V c main_v4) (V c main_v5) (V c main_v3) :=
  (dat1 (F := Ideal) V c).arrAt_eq_of_cover 3 (Cert.Spec.mmul (Product.xarr V c) (Product.sarr V c) (Product.warr V c))
    (fun t hf => Product.flushed_eq V c t hf) Product.cover_out

end Cert.KernelIdeal.Hand

end
-- ==== Proof.RefValue.lean ====
/-
  The reference's result at an index, over the extended reals: entry (b, s, o) of x·Wᵀ is the sum over the 4096 input
  features i of (qx[b, s, i] · sx[b, s, 0]) · ((w[o, i] − off[o, i / 128]) · sc[o, i / 128]) — the broadcasts and the two
  reshapes [11008, 4096] ↔ [11008, 32, 128] read at their indices (feature i is group i / 128, lane i mod 128).
-/
import proofs.«151683_j63213328662919_1_alg».proof.Proof.Gen.ReferenceIdeal.Read
import proofs.«151683_j63213328662919_1_alg».proof.Proof.Spec
import Idealize.ShloMosaic.Lib.ValueIdx
import Idealize.ShloMosaic.PureOps.Ideal.Laws

set_option maxRecDepth 16384

noncomputable section

namespace Cert.ReferenceIdeal.RefValue

open Idealize.ShloMosaic Idealize.ShloMosaic.TcCoe Idealize.SL.Sem Idealize.ShloMosaic.ValueIdx
open Idealize.ShloMosaic.Pipeline (Dat)
open scoped BigOperators
open Cert.ReferenceIdeal Cert.ReferenceIdeal.Gen Cert.ReferenceIdeal.Read

theorem ref_apply (x0 : (⟨S4x2048x4096, .f32⟩ : BufTy).Contents (Elt Ideal)) (x1 : (⟨S4x2048x1, .f32⟩ : BufTy).Contents (Elt Ideal))
    (x2 : (⟨S11008x4096, .f32⟩ : BufTy).Contents (Elt Ideal)) (x3 x4 : (⟨S11008x32, .f32⟩ : BufTy).Contents (Elt Ideal))
    (b : Fin 4) (s : Fin 2048) (o : Fin 11008) :
    val_main_v10 (F := Ideal) x0 x1 x2 x3 x4 (ix3 b s o)
      = ∑ i : Fin 4096, (x0 (ix3 b s i) * x1 (ix3 b s (0 : Fin 1))) * ((x2 (ix2 o i) - x4 (ix2 o (Cert.Spec.grp i))) * x3 (ix2 o (Cert.Spec.grp i))) := by
  -- the contraction is the sum over the 4096 input features
  rw [val_main_v10_apply]
  refine Finset.sum_congr rfl fun i _ => ?_
  -- the left operand is read at (b, s, i), its broadcast scale at (b, s, 0)
  have e0 : lidx_main_v10 (ix3 b s o) i = ix3 b s i := funext fun a => Fin.ext (by
    match a with
    | ⟨0, _⟩ => rfl
    | ⟨1, _⟩ => rfl
    | ⟨2, _⟩ => rfl)
  have e1 : idx_main_v0 (ix3 b s i) = ix3 b s (0 : Fin 1) := funext fun a => Fin.ext (by
    match a with
    | ⟨0, _⟩ => rfl
    | ⟨1, _⟩ => rfl
    | ⟨2, _⟩ => rfl)
  have hi := i.isLt
  have ho := o.isLt
  -- feature i of row o is element o · 4096 + i in row-major order: group i / 128, lane i mod 128; reshaping back gives (o, i)
  have e2 : idx_main_v2 (idx_main_v9 (ridx_main_v10 (ix3 b s o) i)) = ix2 o i := funext fun a => Fin.ext (by
    match a with
    | ⟨0, _⟩ => show (((o.val * 4096 + i.val) / 4096 * 32 + (o.val * 4096 + i.val) / 128 % 32) * 128 + (o.val * 4096 + i.val) % 128) / 4096 = o.val; omega
    | ⟨1, _⟩ => show (((o.val * 4096 + i.val) / 4096 * 32 + (o.val * 4096 + i.val) / 128 % 32) * 128 + (o.val * 4096 + i.val) % 128) % 4096 = i.val; omega)
  -- the offsets and the scales are read at (o, i / 128)
  have e3 : idx_main_v3 (idx_main_v4 (idx_main_v9 (ridx_main_v10 (ix3 b s o) i))) = ix2 o (Cert.Spec.grp i) := funext fun a => Fin.ext (by
    match a with
    | ⟨0, _⟩ => show (o.val * 4096 + i.val) / 4096 = o.val; omega
    | ⟨1, _⟩ => show (o.val * 4096 + i.val) / 128 % 32 = i.val / 128; omega)
  have e4 : idx_main_v6 (idx_main_v7 (idx_main_v9 (ridx_main_v10 (ix3 b s o) i))) = ix2 o (Cert.Spec.grp i) := funext fun a => Fin.ext (by
    match a with
    | ⟨0, _⟩ => show (o.val * 4096 + i.val) / 4096 = o.val; omega
    | ⟨1, _⟩ => show (o.val * 4096 + i.val) / 128 % 32 = i.val / 128; omega)
  -- over the extended reals the float product and difference are the exact ones
  rw [val_main_v1_apply, val_main_v0_apply, val_main_v9_apply, val_main_v8_apply, val_main_v5_apply, val_main_v2_apply,
    val_main_v4_apply, val_main_v3_apply, val_main_v7_apply, val_main_v6_apply, e0, e1, e2, e3, e4,
    Ideal.mulf_def, Ideal.mulf_def, Ideal.subf_def]

end Cert.ReferenceIdeal.RefValue

end
-- ==== Proof.Bridge.lean ====
/-
  The kernel's whole computation against the reference's, over the extended reals. The kernel's program pads the weight,
  scale and offset arrays with 256 zero rows, dequantises, flattens the activations [4, 2048, ·] to [8192, ·], multiplies
  in four accumulated steps, cuts the 256 padded output columns off and restores the leading axes. Entry (b, s, o) of its
  result is therefore the accumulated product at row 2048·b + s and column o < 11008, where the padded arrays are the
  arrays themselves; and the four ordered partial sums are, over the extended reals, one sum over the 4096 features
  (addition there is commutative and associative) — the reference's entry.
-/
import proofs.«151683_j63213328662919_1_alg».proof.Proof.RefValue
import proofs.«151683_j63213328662919_1_alg».proof.Proof.Gen.KernelIdeal
import proofs.«151683_j63213328662919_1_alg».proof.Proof.Spec
import Idealize.ShloMosaic.Lib.Pipeline.Value
import Idealize.ShloMosaic.Lib.KernelVsHost
import Idealize.ShloMosaic.Lib.ValueIdx

set_option maxRecDepth 16384

noncomputable section

namespace Cert.Bridge

open Idealize.ShloMosaic Idealize.ShloMosaic.TcCoe Idealize.SL.Sem Idealize.ShloMosaic.ValueIdx
open Idealize.ShloMosaic.Pipeline (Dat)
open scoped BigOperators
open Cert.KernelIdeal Cert.KernelIdeal.Facts₀ Cert.KernelIdeal.Facts

variable (x0 : FVec Ideal S4x2048x4096 .f32) (x1 : FVec Ideal S4x2048x1 .f32) (x2 : FVec Ideal S11008x4096 .f32)
  (x3 x4 : FVec Ideal S11008x32 .f32) (z : FVec Ideal S_ .f32)

/-- The kernel's program as one term of the argument arrays (the padding value `z` is never read below row 11008). -/
def kernelTerm : FVec Ideal S4x2048x11008 .f32 :=
  shapeCast S4x2048x11008 (extractStridedSlice S8192x11008 ![0, 0]
      (Cert.Spec.mmul (shapeCast S8192x4096 x0 shapeCasts_S4x2048x4096_S8192x4096) (shapeCast S8192x1 x1 shapeCasts_S4x2048x1_S8192x1)
        (Cert.Spec.deq (pad S11264x4096 ![0, 0] ![256, 0] ![0, 0] x2 z pads_S11008x4096_S11264x4096_02560_000 h_S_)
          (pad S11264x32 ![0, 0] ![256, 0] ![0, 0] x3 z pads_S11008x32_S11264x32_02560_000 h_S_)
          (pad S11264x32 ![0, 0] ![256, 0] ![0, 0] x4 z pads_S11008x32_S11264x32_02560_000 h_S_)))
      slices_S8192x11264_S8192x11008_0_0) shapeCasts_S8192x11008_S4x2048x11008

/-- Row 2048·b + s of the flattened activations is row (b, s): both sit at row-major position (b·2048 + s)·4096 + i. -/
theorem flatX_apply (b : Fin 4) (s : Fin 2048) (i : Fin 4096) :
    shapeCast S8192x4096 x0 shapeCasts_S4x2048x4096_S8192x4096
        (ix2 (⟨2048 * b.val + s.val, by have := b.isLt; have := s.isLt; omega⟩ : Fin 8192) i) = x0 (ix3 b s i) := by
  refine shapeCast_apply x0 _ _ (ix3 b s i) ?_
  rw [Shape.rowMajor_val_three, Shape.rowMajor_val_two]
  show (b.val * 2048 + s.val) * 4096 + i.val = (2048 * b.val + s.val) * 4096 + i.val
  omega

/-- Row 2048·b + s of the flattened activation scales is row (b, s). -/
theorem flatSX_apply (b : Fin 4) (s : Fin 2048) (c : Fin 1) :
    shapeCast S8192x1 x1 shapeCasts_S4x2048x1_S8192x1
        (ix2 (⟨2048 * b.val + s.val, by have := b.isLt; have := s.isLt; omega⟩ : Fin 8192) c) = x1 (ix3 b s c) := by
  refine shapeCast_apply x1 _ _ (ix3 b s c) ?_
  rw [Shape.rowMajor_val_three, Shape.rowMajor_val_two]
  show (b.val * 2048 + s.val) * 1 + c.val = (2048 * b.val + s.val) * 1 + c.val
  omega

/-- The padded weights at a row below 11008 are the weights. -/
theorem padW_apply (o : Fin 11008) (i : Fin 4096) :
    pad S11264x4096 ![0, 0] ![256, 0] ![0, 0] x2 z pads_S11008x4096_S11264x4096_02560_000 h_S_
        (ix2 (⟨o.val, by have := o.isLt; omega⟩ : Fin 11264) i) = x2 (ix2 o i) := by
  refine pad_apply_of_inside _ _ _ x2 z _ _ _ (ix2 o i) ?_
  intro a
  match a with
  | ⟨0, _⟩ => show o.val = 0 + o.val * (0 + 1); omega
  | ⟨1, _⟩ => show i.val = 0 + i.val * (0 + 1); omega

/-- The padded scales (or offsets) at a row below 11008 are the scales (or offsets). -/
theorem padG_apply (y : FVec Ideal S11008x32 .f32) (o : Fin 11008) (g : Fin 32) :
    pad S11264x32 ![0, 0] ![256, 0] ![0, 0] y z pads_S11008x32_S11264x32_02560_000 h_S_
        (ix2 (⟨o.val, by have := o.isLt; omega⟩ : Fin 11264) g) = y (ix2 o g) := by
  refine pad_apply_of_inside _ _ _ y z _ _ _ (ix2 o g) ?_
  intro a
  match a with
  | ⟨0, _⟩ => show o.val = 0 + o.val * (0 + 1); omega
  | ⟨1, _⟩ => show g.val = 0 + g.val * (0 + 1); omega

theorem kernel_apply (b : Fin 4) (s : Fin 2048) (o : Fin 11008) :
    kernelTerm x0 x1 x2 x3 x4 z (ix3 b s o)
      = ∑ i : Fin 4096, (x0 (ix3 b s i) * x1 (ix3 b s (0 : Fin 1))) * ((x2 (ix2 o i) - x4 (ix2 o (Cert.Spec.grp i))) * x3 (ix2 o (Cert.Spec.grp i))) := by
  have hr : 2048 * b.val + s.val < 8192 := by have := b.isLt; have := s.isLt; omega
  have ho : o.val < 11264 := by have := o.isLt; omega
  unfold kernelTerm
  -- entry (b, s, o) of the restored array is entry (2048·b + s, o) of the cut array
  rw [shapeCast_apply _ shapeCasts_S8192x11008_S4x2048x11008 (ix3 b s o)
    (ix2 (⟨2048 * b.val + s.val, hr⟩ : Fin 8192) o) (by
      rw [Shape.rowMajor_val_three, Shape.rowMajor_val_two]
      show (2048 * b.val + s.val) * 11008 + o.val = (b.val * 2048 + s.val) * 11008 + o.val
      omega)]
  -- which is entry (2048·b + s, o) of the product, o < 11008 ≤ 11264
  rw [extractStridedSlice_apply ![0, 0] _ slices_S8192x11264_S8192x11008_0_0
    (ix2 (⟨2048 * b.val + s.val, hr⟩ : Fin 8192) o)
    (ix2 (⟨2048 * b.val + s.val, hr⟩ : Fin 8192) (⟨o.val, ho⟩ : Fin 11264)) (by
      intro a
      match a with
      | ⟨0, _⟩ => show 2048 * b.val + s.val = 0 + (2048 * b.val + s.val); omega
      | ⟨1, _⟩ => show o.val = 0 + o.val; omega)]
  show Cert.Spec.mmulAt _ _ _ (⟨2048 * b.val + s.val, hr⟩ : Fin 8192) (⟨o.val, ho⟩ : Fin 11264) = _
  rw [Cert.Spec.mmulAt_eq_sum]
  refine Finset.sum_congr rfl fun i _ => ?_
  unfold Cert.Spec.term
  show (_ * _) * Cert.Spec.deqAt _ _ _ (⟨o.val, ho⟩ : Fin 11264) i = _
  unfold Cert.Spec.deqAt
  rw [flatX_apply, flatSX_apply, padW_apply, padG_apply, padG_apply]

/-- The kernel's term is the reference's. -/
theorem kernel_eq_ref :
    kernelTerm x0 x1 x2 x3 x4 z = Cert.ReferenceIdeal.Read.val_main_v10 (F := Ideal) x0 x1 x2 x3 x4 := by
  funext j
  obtain ⟨b, s, o, rfl⟩ : ∃ (b : Fin 4) (s : Fin 2048) (o : Fin 11008), j = ix3 b s o := ⟨j 0, j 1, j 2, eq_ix3 j⟩
  rw [kernel_apply, Cert.ReferenceIdeal.RefValue.ref_apply]

end Cert.Bridge

end
-- ==== Proof.KernelValue.lean ====
/-
  The kernel program's result as a value over the extended reals: at the end of the run the result buffer holds the
  reference's term of the argument arrays. The buffer is read back through the program's stretches — the last two host
  operations over the product array, the product over what region 1 found (the flattened activations and scales, and the
  dequantised weights region 0 left), those over the three padded arrays — and the composed term is the reference's
  (`Bridge.kernel_eq_ref`).
-/
import proofs.«151683_j63213328662919_1_alg».proof.Proof.KernelIdeal.HostValue
import proofs.«151683_j63213328662919_1_alg».proof.Proof.DequantValue
import proofs.«151683_j63213328662919_1_alg».proof.Proof.MatmulValue
import proofs.«151683_j63213328662919_1_alg».proof.Proof.Bridge

set_option maxRecDepth 16384

noncomputable section

namespace Cert.KernelIdeal.Hand

open Idealize.ShloMosaic Idealize.ShloMosaic.TcCoe Idealize.SL.Sem
open Cert.KernelIdeal Cert.KernelIdeal.Gen

variable (m : (ℓ : Loc nD τ sig) → Buf (Elt Ideal) ℓ)

/-- What the result buffer holds at the last boundary. -/
theorem result_eq (c : Dev nD) : B10 m c (Proc.devRef .tc main_v8)
    = Cert.ReferenceIdeal.Read.val_main_v10 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  rw [B10_v8, final1 (E1 m) c, E1_v4, E1_v5, E1_v3, final0 (E0 m) c, E0_v0, E0_v1, E0_v2]
  exact Cert.Bridge.kernel_eq_ref _ _ _ _ _ _

/-- The run, read: the result at the reference's term, the arguments unchanged. -/
theorem value_run (ρ : Dev nD → PrngReg) : θ_run defs (onTc (τ := τ) (main (F := Ideal))) ⟨m, fun _ => 0, ρ⟩ (fun r => ∀ c : Dev nD,
      r.2.mem ((c.tc : Thread nD τ).loc main_v8)
        = Cert.ReferenceIdeal.Read.val_main_v10 (F := Ideal) (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v8 (by decide))).trans (result_eq m c),
     (h c _ (mem_uc main_arg0 (by decide))).trans (B10_main_arg0 m c),
     (h c _ (mem_uc main_arg1 (by decide))).trans (B10_main_arg1 m c),
     (h c _ (mem_uc main_arg2 (by decide))).trans (B10_main_arg2 m c),
     (h c _ (mem_uc main_arg3 (by decide))).trans (B10_main_arg3 m c),
     (h c _ (mem_uc main_arg4 (by decide))).trans (B10_main_arg4 m c)⟩) (run_all m ρ)

end Cert.KernelIdeal.Hand

end
-- ==== Proof.lean ====
/-
  The certificate of the per-group dequantised linear layer: out[b, s, o] = Σ_i (qx[b, s, i]·sx[b, s, 0]) ·
  ((w[o, i] − off[o, i / 128])·sc[o, i / 128]), computed by the kernel in two regions (the weights dequantised block by
  block; a tiled product accumulated over four reduction steps) and by the reference as one contraction.

  The three frames: both kernel programs by the run of their two regions and the host stretches between them (the same
  text at both float instances: it never looks inside a float), the reference by its run. The idealization rewrote
  nothing. Over the extended reals both programs end with the same array: the kernel's four ordered partial sums from 0
  are the reference's one sum over the 4096 input features, since addition there is commutative and associative, and
  the padded rows and columns are cut away before they are read.
-/
import proofs.«151683_j63213328662919_1_alg».proof.Defs
import proofs.«151683_j63213328662919_1_alg».proof.Proof.Gen.Kernel
import proofs.«151683_j63213328662919_1_alg».proof.Proof.Gen.KernelIdeal
import proofs.«151683_j63213328662919_1_alg».proof.Proof.Gen.ReferenceIdeal
import proofs.«151683_j63213328662919_1_alg».proof.Proof.Gen.ReferenceIdeal.Run
import proofs.«151683_j63213328662919_1_alg».proof.Proof.Gen.ReferenceIdeal.Read
import proofs.«151683_j63213328662919_1_alg».proof.Proof.Gen.Pre_finite_inputs
import proofs.«151683_j63213328662919_1_alg».proof.Proof.Kernel.Whole
import proofs.«151683_j63213328662919_1_alg».proof.Proof.KernelIdeal.Whole
import proofs.«151683_j63213328662919_1_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the reference's term of them. -/
theorem algebraic : Cert.algebraic_KernelIdeal_ReferenceIdeal := by
  intro m ρ m' ρ' _ hagree
  refine ⟨_, Cert.KernelIdeal.Hand.value_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
